-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x8x128 : Shape := ⟨3, ![8, 8, 128]⟩
abbrev S1x1024x128 : Shape := ⟨3, ![1, 1024, 128]⟩
abbrev S1x8x128 : Shape := ⟨3, ![1, 8, 128]⟩
abbrev S1024x1 : Shape := ⟨2, ![1024, 1]⟩
abbrev S1x4096 : Shape := ⟨2, ![1, 4096]⟩
abbrev S8x128 : Shape := ⟨2, ![8, 128]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x8x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x8x128, .f32⟩
  | .local _ .vmem, ⟨5, _⟩ => ⟨S1x8x128, .f32⟩
  | .local _ .vmem, ⟨6, _⟩ => ⟨S1024x1, .f32⟩
  | .local _ .vmem, ⟨7, _⟩ => ⟨S1x4096, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v42 : BitVec 32 := Scalar.muli arg2 c1024_i32
  v42
def k0_cond5 (i : grid0.Coords) : BitVec 1 :=
  let arg1 : BitVec 32 := BitVec.ofNat 32 (i 1).val
  let c0_i32_18 : BitVec 32 := 0#32
  let v44 : BitVec 1 := Scalar.cmpi .eq arg1 c0_i32_18
  let v45 : BitVec 32 := Scalar.extui v44
  let c0_i32_19 : BitVec 32 := 0#32
  let v46 : BitVec 1 := Scalar.cmpi .ne v45 c0_i32_19
  v46

def k0_off1 (i : grid0.Coords) : Fin 2 → Nat :=
  let c0_24 : Index := 0#32
  let arg2 : BitVec 32 := BitVec.ofNat 32 (i 2).val
  let c1024_i32 : BitVec 32 := 1024#32
  let v42 : BitVec 32 := Scalar.muli arg2 c1024_i32
  let v43 : BitVec 32 := v42
  let v53 : Index := Scalar.indexCast v43
  ![0, v53.toNat]
def k0_cond6 (i : grid0.Coords) : BitVec 1 :=
  let arg1 : BitVec 32 := BitVec.ofNat 32 (i 1).val
  let c0_i32_20 : BitVec 32 := 0#32
  let v47 : BitVec 1 := Scalar.cmpi .sgt arg1 c0_i32_20
  let v48 : BitVec 32 := Scalar.extui v47
  let c0_i32_21 : BitVec 32 := 0#32
  let v49 : BitVec 1 := Scalar.cmpi .ne v48 c0_i32_21
  v49

def k0_off2 (i : grid0.Coords) : Fin 2 → Nat :=
  let c0_24 : Index := 0#32
  let arg2 : BitVec 32 := BitVec.ofNat 32 (i 2).val
  let c1024_i32 : BitVec 32 := 1024#32
  let v42 : BitVec 32 := Scalar.muli arg2 c1024_i32
  let v43 : BitVec 32 := v42
  let v53 : Index := Scalar.indexCast v43
  ![0, v53.toNat]
def k0_cond7 (i : grid0.Coords) : BitVec 1 :=
  let arg1 : BitVec 32 := BitVec.ofNat 32 (i 1).val
  let c3_i32_22 : BitVec 32 := 3#32
  let v50 : BitVec 1 := Scalar.cmpi .eq arg1 c3_i32_22
  let v51 : BitVec 32 := Scalar.extui v50
  let c0_i32_23 : BitVec 32 := 0#32
  let v52 : BitVec 1 := Scalar.cmpi .ne v51 c0_i32_23
  v52

def k0_off3 (i : grid0.Coords) : Fin 2 → Nat :=
  let c0_24 : Index := 0#32
  let arg2 : BitVec 32 := BitVec.ofNat 32 (i 2).val
  let c1024_i32 : BitVec 32 := 1024#32
  let v42 : BitVec 32 := Scalar.muli arg2 c1024_i32
  let v43 : BitVec 32 := v42
  let v53 : Index := Scalar.indexCast v43
  ![0, v53.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_17 : BitVec 32 := 0#32
  let v41 : BitVec 1 := Scalar.cmpi .ne v40 c0_i32_17
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  h_S1x1024 : 0 < S1x1024.numel
  shapeCasts_S1x1024_S1x1024 : S1x1024.ShapeCasts S1x1024
  reduces_S1x1024_S1 : S1x1024.Reduces [1] S1
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 1024 ∣ (k0_mult1 i).toNat
  k0_off1_inb : ∀ i : grid0.Coords, ∀ (k0_h5 : k0_cond5 i = 1#1), ∀ a, (k0_off1 i) a + S1x1024.size a ≤ S1x4096.size a
  k0_off2_inb : ∀ i : grid0.Coords, ∀ (k0_h6 : k0_cond6 i = 1#1), ∀ a, (k0_off2 i) a + S1x1024.size a ≤ S1x4096.size a
  k0_off3_inb : ∀ i : grid0.Coords, ∀ (k0_h7 : k0_cond7 i = 1#1), ∀ a, (k0_off3 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .f32 = 32 ∨ (Rect.block (s := S8x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond4 i == 1#1) && !(k0_cond7 i == 1#1) | ⟨_ + 3, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x128, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8x4096x4096_S8x4096_d2 : S8x4096x4096.ReducesTo [2] S8x4096
  reducesTo_S8_S_d0 : S8.ReducesTo [0] S_
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.K.Cases.lean ====
/-
  The grid of the distance kernel is (batch b, row tile i, column tile j) = (8, 4, 4); point `t` is
  (t / 16, t / 4 % 4, t % 4).  The body's seven branches test j = 0, j > 0, j = 3, i = 0, i > 0, i = 3 and
  (i, j) = (0, 0); here each test is decided over the grid once, in closed form, together with where the
  output window is idle, where it is written back, and the column offset 1024 · j of the slice of the
  column-minimum scratch the point touches.
-/
import proofs.«171129_j67413806678291_1_alg».proof.Proof.Gen.Kernel.Frame
import proofs.«171129_j67413806678291_1_alg».proof.Proof.Gen.Kernel.Skeleton
import proofs.«171129_j67413806678291_1_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions the skeleton spells inline -/

/-- `j = 0` as the body computes it (the reset of the row-minimum scratch). -/
abbrev cJ0 (i : grid0.Coords) : Prop :=
  (Scalar.cmpi .ne (Scalar.extui (Scalar.cmpi .eq (BitVec.ofNat 32 (i 2).val) 0#32)) 0#32) = 1#1
/-- `j > 0` as the body computes it (the running minimum into the row-minimum scratch). -/
abbrev cJpos (i : grid0.Coords) : Prop :=
  (Scalar.cmpi .ne (Scalar.extui (Scalar.cmpi .sgt (BitVec.ofNat 32 (i 2).val) 0#32)) 0#32) = 1#1

/-! ## The conditions in closed form over the 128 points -/

theorem hc1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcJ0 : ∀ t : Fin cfg0.N, cJ0 (grid0.coords t) ↔ t.val % 4 = 0 :=
  (by decide +kernel : ∀ t : Fin grid0.N, cJ0 (grid0.coords t) ↔ t.val % 4 = 0)
theorem hcJpos : ∀ t : Fin cfg0.N, cJpos (grid0.coords t) ↔ t.val % 4 ≠ 0 :=
  (by decide +kernel : ∀ t : Fin grid0.N, cJpos (grid0.coords t) ↔ t.val % 4 ≠ 0)
theorem hc4 : ∀ t : Fin cfg0.N, k0_cond4 (grid0.coords t) = 1#1 ↔ t.val % 4 = 3 :=
  (by decide +kernel : ∀ t : Fin grid0.N, k0_cond4 (grid0.coords t) = 1#1 ↔ t.val % 4 = 3)
theorem hc5 : ∀ t : Fin cfg0.N, k0_cond5 (grid0.coords t) = 1#1 ↔ t.val / 4 % 4 = 0 :=
  (by decide +kernel : ∀ t : Fin grid0.N, k0_cond5 (grid0.coords t) = 1#1 ↔ t.val / 4 % 4 = 0)
theorem hc6 : ∀ t : Fin cfg0.N, k0_cond6 (grid0.coords t) = 1#1 ↔ t.val / 4 % 4 ≠ 0 :=
  (by decide +kernel : ∀ t : Fin grid0.N, k0_cond6 (grid0.coords t) = 1#1 ↔ t.val / 4 % 4 ≠ 0)
theorem hc7 : ∀ t : Fin cfg0.N, k0_cond7 (grid0.coords t) = 1#1 ↔ t.val / 4 % 4 = 3 :=
  (by decide +kernel : ∀ t : Fin grid0.N, k0_cond7 (grid0.coords t) = 1#1 ↔ t.val / 4 % 4 = 3)

/-- The point's coordinates: batch, row tile, column tile. -/
theorem coord_b : ∀ t : Fin cfg0.N, ((grid0.coords t) 0).val = t.val / 16 :=
  (by decide +kernel : ∀ t : Fin grid0.N, ((grid0.coords t) 0).val = t.val / 16)
theorem coord_i : ∀ t : Fin cfg0.N, ((grid0.coords t) 1).val = t.val / 4 % 4 :=
  (by decide +kernel : ∀ t : Fin grid0.N, ((grid0.coords t) 1).val = t.val / 4 % 4)
theorem coord_j : ∀ t : Fin cfg0.N, ((grid0.coords t) 2).val = t.val % 4 :=
  (by decide +kernel : ∀ t : Fin grid0.N, ((grid0.coords t) 2).val = t.val % 4)

/-! ## Where the windows are idle and where the output is written back -/

theorem liveAt0 : ∀ t : Fin cfg0.N, cfg0.idle 0 (grid0.coords t) = false := by decide +kernel
theorem liveAt1 : ∀ t : Fin cfg0.N, cfg0.idle 1 (grid0.coords t) = false := by decide +kernel
/-- The output's staging buffer is stored at (0, 0), at j = 3 and at i = 3, -/
theorem liveAt2 : ∀ t : Fin cfg0.N, (t.val % 16 = 0 ∨ t.val % 4 = 3 ∨ t.val / 4 % 4 = 3) → cfg0.idle 2 (grid0.coords t) = false :=
  (by decide +kernel : ∀ t : Fin grid0.N, (t.val % 16 = 0 ∨ t.val % 4 = 3 ∨ t.val / 4 % 4 = 3) → cfg0.idle 2 (grid0.coords t) = false)
/-- and untouched at the other points, -/
theorem idleAt2 : ∀ t : Fin cfg0.N, ¬(t.val % 16 = 0 ∨ t.val % 4 = 3 ∨ t.val / 4 % 4 = 3) → cfg0.idle 2 (grid0.coords t) = true :=
  (by decide +kernel : ∀ t : Fin grid0.N, ¬(t.val % 16 = 0 ∨ t.val % 4 = 3 ∨ t.val / 4 % 4 = 3) → cfg0.idle 2 (grid0.coords t) = true)
/-- and it is written back at the batch's last point only. -/
theorem noFlush2 (t : Fin cfg0.N) (h : t.val % 16 ≠ 15) : (cfg0.win 2).flush t = false := by
  cases hf : (cfg0.win 2).flush t with
  | false => rfl
  | true => exact absurd ((flush0_2 t).mp hf) h

/-! ## The memrefs the body is called with -/

abbrev ms0 (t : Fin cfg0.N) : Memref sig .tc .vmem S1x1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The row-minimum scratch (1024 × 1) and the column-minimum scratch (1 × 4096). -/
abbrev scM0 : Memref sig .tc .vmem S1024x1 .f32 := Memref.whole cc0_scratch0
abbrev scM1 : Memref sig .tc .vmem S1x4096 .f32 := Memref.whole cc0_scratch1

/-- What the launch lends the body beside the windows: both scratch buffers at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Hand

end
-- ==== Proof.K.Model.lean ====
/-
  What one grid point does to the three buffers the kernel carries from point to point — the output block's
  staging buffer (8 × 128, only entry (0, 0) ever differs from zero), the row-minimum scratch (1024 × 1) and the
  column-minimum scratch (1 × 4096) — as ONE pure function `step` of the point's coordinates, its two input
  blocks and the three buffers' contents before it, at any float instance; and the contents after each of the
  128 points by recursion on the point (`stAt`).  The scratch buffers start at contents nobody names; the
  recursion starts from an arbitrary state, and the obligation shows which parts of it the run agrees with.
-/
import proofs.«171129_j67413806678291_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three carried buffers' contents. -/
structure St (F : FTy → Type) where
  /-- the output block's staging buffer -/
  o : Vec F S1x8x128 .f32
  /-- the running row minima of the current row tile -/
  s0 : Vec F S1024x1 .f32
  /-- the running column minima of the current batch, all four column tiles -/
  s1 : Vec F S1x4096 .f32

/-- The slice of the column-minimum scratch the point touches, spelt with each access's own offsets. -/
abbrev R1 (i : grid0.Coords) (h : k0_cond5 i = 1#1) : Rect S1x4096 := Rect.unit (s := S1x4096) (k0_off1 i) S1x1024.size (k0_off1_inb i h)
abbrev R2 (i : grid0.Coords) (h : k0_cond6 i = 1#1) : Rect S1x4096 := Rect.unit (s := S1x4096) (k0_off2 i) S1x1024.size (k0_off2_inb i h)
abbrev R3 (i : grid0.Coords) (h : k0_cond7 i = 1#1) : Rect S1x4096 := Rect.unit (s := S1x4096) (k0_off3 i) S1x1024.size (k0_off3_inb i h)

/-- The row-minimum scratch after a point: the tile's row minima stored (j = 0) or folded into what was there (j > 0). -/
def stepS0 (i : grid0.Coords) (x y : Vec F S1x1024x128 .f32) (s0 : Vec F S1024x1 .f32) : Vec F S1024x1 .f32 :=
  let s0a : Vec F S1024x1 .f32 := if cJ0 i then k0_pay10 x y else s0
  if cJpos i then k0_pay1 (k0_pay8 x y) s0a else s0a

/-- The column-minimum scratch after a point: the tile's column minima stored into (i = 0) or folded into (i > 0)
    the slice of columns 1024 j … 1024 j + 1023. -/
def stepS1 (i : grid0.Coords) (x y : Vec F S1x1024x128 .f32) (s1 : Vec F S1x4096 .f32) : Vec F S1x4096 .f32 :=
  let s1a : Vec F S1x4096 .f32 := if h : k0_cond5 i = 1#1 then (R1 i h).overlay s1 (k0_pay3 (k0_pay9 x y)) else s1
  if h : k0_cond6 i = 1#1 then (R2 i h).overlay s1a (k0_pay4 (k0_pay9 x y) (View.ld s1a (R2 i h))) else s1a

/-- The output block after a point, from the two scratch buffers as the point leaves them: zeroed at (i, j) = (0, 0);
    at j = 3 the sum of the row minima, scaled, added in; at i = 3 the sum of the slice's column minima, scaled, added in. -/
def stepO (i : grid0.Coords) (s0b : Vec F S1024x1 .f32) (s1b : Vec F S1x4096 .f32) (o : Vec F S1x8x128 .f32) : Vec F S1x8x128 .f32 :=
  let o1 : Vec F S1x8x128 .f32 := if k0_cond1 i = 1#1 then k0_pay6 else o
  let o2 : Vec F S1x8x128 .f32 := if k0_cond4 i = 1#1 then k0_pay2 s0b o1 else o1
  if h : k0_cond7 i = 1#1 then k0_pay5 (View.ld s1b (R3 i h)) o2 else o2

/-- One grid point. -/
def step (i : grid0.Coords) (x y : Vec F S1x1024x128 .f32) (st : St F) : St F :=
  ⟨stepO i (stepS0 i x y st.s0) (stepS1 i x y st.s1) st.o, stepS0 i x y st.s0, stepS1 i x y st.s1⟩

variable (m : (ℓ : Loc nD τ sig) → Buf (Elt F) ℓ)

/-- The two input blocks of point `t`: rows 1024 i … of batch b of the first argument, rows 1024 j … of batch b of the second. -/
abbrev xblk (c : Dev nD) (t : Fin cfg0.N) : Vec F S1x1024x128 .f32 := iblk m c 0 t
abbrev yblk (c : Dev nD) (t : Fin cfg0.N) : Vec F S1x1024x128 .f32 := iblk m c 1 t

/-- What the recursion starts from: any state will do (zeros), since no entry of it that matters survives the first points. -/
def st₀ : St F := ⟨fun _ => (Scalar.ofBits .f32 0x00000000#32 : F .f32), fun _ => (Scalar.ofBits .f32 0x00000000#32 : F .f32), fun _ => (Scalar.ofBits .f32 0x00000000#32 : F .f32)⟩

/-- The carried buffers after point `n`. -/
def stAt (c : Dev nD) : (n : ℕ) → n < cfg0.N → St F
  | 0, hn => step (grid0.coords ⟨0, hn⟩) (xblk m c ⟨0, hn⟩) (yblk m c ⟨0, hn⟩) st₀
  | n + 1, hn => step (grid0.coords ⟨n + 1, hn⟩) (xblk m c ⟨n + 1, hn⟩) (yblk m c ⟨n + 1, hn⟩) (stAt c n (Nat.lt_of_succ_lt hn))

/-- The carried buffers before point `n`. -/
def stBefore (c : Dev nD) (n : ℕ) (hn : n < cfg0.N) : St F :=
  match n, hn with
  | 0, _ => st₀
  | n + 1, hn => stAt m c n (Nat.lt_of_succ_lt hn)

theorem stAt_eq (c : Dev nD) (t : Fin cfg0.N) :
    stAt m c t.val t.isLt = step (grid0.coords t) (xblk m c t) (yblk m c t) (stBefore m c t.val t.isLt) := by
  obtain ⟨n, hn⟩ := t
  cases n with
  | zero => rfl
  | succ n => rfl

theorem stBefore_pos (c : Dev nD) (n : ℕ) (hn : n < cfg0.N) (h0 : n ≠ 0) :
    stBefore m c n hn = stAt m c (n - 1) (Nat.lt_of_le_of_lt (Nat.sub_le _ _) hn) := by
  cases n with
  | zero => exact absurd rfl h0
  | succ n => rfl

end Cert.Kernel.Hand

end
-- ==== Proof.K.StepLaws.lean ====
/-
  How one grid point's `step` depends on the three carried buffers it starts from: on the output block only away
  from a batch's first point (which zeroes it), on the row-minimum scratch only at j > 0 (j = 0 overwrites it), and
  on the column-minimum scratch only through the columns already written in this batch — columns below 1024 j on
  the batch's first row tile, all of them afterwards.  So two starting states that agree on those parts end in
  states that agree on the output block, on the row-minimum scratch, and on the columns written by then.  And at a
  point that neither zeroes the output block nor adds into it the block is left as it was.
-/
import proofs.«171129_j67413806678291_1_alg».proof.Proof.K.Model

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem stepS0_congr (t : Fin cfg0.N) (x y : Vec F S1x1024x128 .f32) (s s' : Vec F S1024x1 .f32)
    (h : t.val % 4 ≠ 0 → s = s') : stepS0 (grid0.coords t) x y s = stepS0 (grid0.coords t) x y s' := by
  by_cases h0 : t.val % 4 = 0
  · unfold stepS0
    simp only [if_pos ((hcJ0 t).mpr h0)]
  · rw [h h0]

/-- Columns [1024 j, 1024 j + 1024) of the one row: membership in the slice the point touches. -/
theorem mem_R1_iff (t : Fin cfg0.N) (h : k0_cond5 (grid0.coords t) = 1#1) (z : S1x4096.Idx) :
    z ∈ (R1 (grid0.coords t) h).set ↔ 1024 * (t.val % 4) ≤ (z 1).val ∧ (z 1).val < 1024 * (t.val % 4) + 1024 := by
  have e : k0_off1 (grid0.coords t) = ![0, 1024 * (t.val % 4)] := by rw [k0_off1_eq, coord_j]
  unfold R1
  rw [Rect.mem_set_unit]
  constructor
  · intro H
    have := H 1
    rw [e] at this
    exact this
  · intro H a
    rw [e]
    match a with
    | ⟨0, _⟩ =>
      have h0 : (z 0).val < 1 := (z 0).isLt
      exact ⟨Nat.zero_le _, by show (z 0).val < 0 + 1; omega⟩
    | ⟨1, _⟩ => exact H

theorem stepS1_congr (t : Fin cfg0.N) (x y : Vec F S1x1024x128 .f32) (s s' : Vec F S1x4096 .f32)
    (h : ∀ z : S1x4096.Idx, ((z 1).val < 1024 * (t.val % 4) ∨ 1 ≤ t.val / 4 % 4) → s z = s' z) :
    ∀ z : S1x4096.Idx, ((z 1).val < 1024 * (t.val % 4 + 1) ∨ 1 ≤ t.val / 4 % 4) →
      stepS1 (grid0.coords t) x y s z = stepS1 (grid0.coords t) x y s' z := by
  intro z hz
  by_cases hi : t.val / 4 % 4 = 0
  · have h5 : k0_cond5 (grid0.coords t) = 1#1 := (hc5 t).mpr hi
    have h6 : ¬ k0_cond6 (grid0.coords t) = 1#1 := fun H => (hc6 t).mp H hi
    unfold stepS1
    simp only [dif_pos h5, dif_neg h6]
    by_cases hm : z ∈ (R1 (grid0.coords t) h5).set
    · obtain ⟨w, rfl⟩ := (R1 (grid0.coords t) h5).exists_idx_of_mem hm
      exact ((R1 (grid0.coords t) h5).overlay_emb s _ w).trans ((R1 (grid0.coords t) h5).overlay_emb s' _ w).symm
    · rw [Rect.overlay_of_not_mem _ _ _ hm, Rect.overlay_of_not_mem _ _ _ hm]
      refine h z (Or.inl ?_)
      have hm' := mt (mem_R1_iff t h5 z).mpr hm
      rcases hz with hz | hz
      · omega
      · omega
  · have e : s = s' := funext fun z => h z (Or.inr (by omega))
    rw [e]

theorem stepO_congr (t : Fin cfg0.N) (s0b : Vec F S1024x1 .f32) (s1b s1b' : Vec F S1x4096 .f32) (o o' : Vec F S1x8x128 .f32)
    (ho : t.val % 16 ≠ 0 → o = o') (hs : t.val / 4 % 4 = 3 → s1b = s1b') :
    stepO (grid0.coords t) s0b s1b o = stepO (grid0.coords t) s0b s1b' o' := by
  have e1 : (if k0_cond1 (grid0.coords t) = 1#1 then (k0_pay6 : Vec F S1x8x128 .f32) else o)
      = (if k0_cond1 (grid0.coords t) = 1#1 then (k0_pay6 : Vec F S1x8x128 .f32) else o') := by
    by_cases h0 : t.val % 16 = 0
    · rw [if_pos ((hc1 t).mpr h0), if_pos ((hc1 t).mpr h0)]
    · rw [ho h0]
  unfold stepO
  simp only [e1]
  by_cases h7 : t.val / 4 % 4 = 3
  · rw [hs h7]
  · simp only [dif_neg (fun H => h7 ((hc7 t).mp H))]

/-- Two starting states that agree where the point reads them end in states that agree where later points read. -/
theorem step_congr (t : Fin cfg0.N) (x y : Vec F S1x1024x128 .f32) (st st' : St F)
    (ho : t.val % 16 ≠ 0 → st.o = st'.o) (hs0 : t.val % 4 ≠ 0 → st.s0 = st'.s0)
    (hs1 : ∀ z : S1x4096.Idx, ((z 1).val < 1024 * (t.val % 4) ∨ 1 ≤ t.val / 4 % 4) → st.s1 z = st'.s1 z) :
    (step (grid0.coords t) x y st).o = (step (grid0.coords t) x y st').o
    ∧ (step (grid0.coords t) x y st).s0 = (step (grid0.coords t) x y st').s0
    ∧ ∀ z : S1x4096.Idx, ((z 1).val < 1024 * (t.val % 4 + 1) ∨ 1 ≤ t.val / 4 % 4) →
        (step (grid0.coords t) x y st).s1 z = (step (grid0.coords t) x y st').s1 z := by
  have e0 := stepS0_congr t x y st.s0 st'.s0 hs0
  have e1 := stepS1_congr t x y st.s1 st'.s1 hs1
  refine ⟨?_, e0, e1⟩
  show stepO _ (stepS0 _ x y st.s0) (stepS1 _ x y st.s1) st.o = stepO _ (stepS0 _ x y st'.s0) (stepS1 _ x y st'.s1) st'.o
  rw [e0]
  exact stepO_congr t _ _ _ _ _ ho (fun h7 => funext fun z => e1 z (Or.inr (by omega)))

/-- A point that is neither a batch's first, nor on the last column tile, nor on the last row tile leaves the output block as it found it. -/
theorem step_o_idle (t : Fin cfg0.N) (x y : Vec F S1x1024x128 .f32) (st : St F)
    (h : ¬(t.val % 16 = 0 ∨ t.val % 4 = 3 ∨ t.val / 4 % 4 = 3)) : (step (grid0.coords t) x y st).o = st.o := by
  show stepO _ _ _ st.o = st.o
  unfold stepO
  simp only [if_neg (fun H => h (Or.inl ((hc1 t).mp H))), if_neg (fun H => h (Or.inr (Or.inl ((hc4 t).mp H)))),
    dif_neg (fun H => h (Or.inr (Or.inr ((hc7 t).mp H))))]

end Cert.Kernel.Hand

end
-- ==== Proof.K.Dats.lean ====
/-
  The pipeline's proof data for the distance kernel, at any float instance: the arrays as the region finds them;
  after the body at point t the two inputs' staging buffers at their blocks and the output block's at the model's
  `(stAt t).o`; and the invariant carried between points — the row-minimum scratch at the model's contents, the
  column-minimum scratch at some contents agreeing with the model's on the columns written so far in the batch
  (columns below 1024 (j + 1) on the batch's first row tile, every column afterwards), the generator register.
-/
import proofs.«171129_j67413806678291_1_alg».proof.Proof.K.Model

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The columns of the column-minimum scratch written in the batch by the end of point `n`. -/
def Known (n : ℕ) (z : S1x4096.Idx) : Prop := (z 1).val < 1024 * (n % 4 + 1) ∨ 1 ≤ n / 4 % 4

/-- Contents of the column-minimum scratch that agree with the model's after point `n` on the columns written by then. -/
def Agree (c : Dev nD) (n : ℕ) (hn : n < cfg0.N) (d1 : Vec F S1x4096 .f32) : Prop :=
  ∀ z : S1x4096.Idx, Known n z → d1 z = (stAt m c n hn).s1 z

/-- The invariant before position `n`: before the first point what the launch lends (both scratch buffers at
    anything); afterwards the row-minimum scratch at the model's contents after the point before, the
    column-minimum scratch at contents agreeing with the model's there, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).s0
      ∗ (∃ d1, ⌜Agree m c n hn d1⌝ ∗ owns (c : Thread nD τ) scM1 fullShare d1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).s0
      ∗ (∃ d1, ⌜Agree m c n hn d1⌝ ∗ owns (c : Thread nD τ) scM1 fullShare d1)) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).s0
      ∗ (∃ d1, ⌜Agree m c (n - 1) (by omega) d1⌝ ∗ owns (c : Thread nD τ) scM1 fullShare d1)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).o
  Φ t := PhiS m c t.val (Nat.le_of_lt_succ t.isLt)
  q _ := fullShare
  owed _ := 0

/-- The output array after all 128 points, as the library computes it from the proof data (each batch's block written back at the batch's last point). -/
abbrev outArr (c : Dev nD) : Vec F S8x8x128 .f32 := (dats m 0 c).arrAt 2 cfg0.N

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).o := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.Kernel.Hand

end
-- ==== Proof.LibOverlay.lean ====
/-
  Readings of what stores through unit-stride rectangles leave in a buffer, as functions of what the buffer read
  before: a store through the rectangle that is the whole shape (zero offsets, however spelt), made last, leaves its
  payload; one store through any rectangle leaves the payload laid over the earlier contents on that rectangle
  (`Rect.overlay`); and a load through a rectangle of the same offsets and sizes as the last store's, the offsets
  spelt differently, reads that store's payload back.
-/
import Idealize.ShloMosaic.Lib.Pipeline.Value
import Idealize.ShloMosaic.Lib.Pipeline.FrameBody
import Idealize.ShloMosaic.Lib.Writes
import Idealize.ShloMosaic.Lib.Memref

namespace Idealize.ShloMosaic.View

variable {sig : RefSig} {κ : Kind} {sp : Space} {s : Shape} {e : EltTy} {Val : EltTy → Type}

/-- One store through the whole-shape rectangle reads back as its payload, whatever the buffer held. -/
theorem read_writes_unit_zero [∀ e, Nonempty (Val e)] (v : View sig κ sp s e) (f : v.ty.Contents Val)
    {off : Fin s.rank → Nat} (h : off = fun _ => 0) (inb : ∀ a, off a + s.size a ≤ s.size a) (w : s.Idx → Val e) :
    v.read Val (v.writes Val f [(⟨Rect.unit off s.size inb, w⟩ : Piece Val s e)]) = w := by
  rw [View.read_writes_eq_canon v f _ (fun y => ⟨_, List.mem_singleton_self _, View.mem_set_unit_zero h inb y⟩),
    View.canon_unit_zero h inb w]

/-- One store through a rectangle reads back as its payload on the rectangle and as the earlier contents off it. -/
theorem read_writes_overlay (v : View sig κ sp s e) (f : v.ty.Contents Val) (r : Rect s) (w : r.shape.Idx → Val e) :
    v.read Val (v.writes Val f [(⟨r, w⟩ : Piece Val s e)]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', View.writes_nil, Rect.overlay_of_not_mem _ _ _ hy]

/-- A store through the whole-shape rectangle, made LAST, reads back as its payload whatever was stored before. -/
theorem read_writes_cons_unit_zero [∀ e, Nonempty (Val e)] (v : View sig κ sp s e) (f : v.ty.Contents Val)
    {off : Fin s.rank → Nat} (h : off = fun _ => 0) (inb : ∀ a, off a + s.size a ≤ s.size a) (w : s.Idx → Val e)
    (L : List (Piece Val s e)) :
    v.read Val (v.writes Val f ((⟨Rect.unit off s.size inb, w⟩ : Piece Val s e) :: L)) = w := by
  funext y
  rw [View.read_writes_apply_eq_canon v f y _ ⟨_, List.mem_cons_self, View.mem_set_unit_zero h inb y⟩,
    View.canon_cons_unit_zero h inb w L]

/-- A load through the rectangle of the last store — the same offsets, spelt differently — reads its payload. -/
theorem readCov_unit_congr [∀ e, Nonempty (Val e)] (v : View sig κ sp s e) {off off' size : Fin s.rank → ℕ}
    (inb : ∀ a, off a + size a ≤ s.size a) (inb' : ∀ a, off' a + size a ≤ s.size a)
    (w : (Rect.unit off size inb).shape.Idx → Val e) (L : List (Piece Val s e)) (h : off = off') :
    v.readCov ((⟨Rect.unit off size inb, w⟩ : Piece Val s e) :: L) (Rect.unit off' size inb').toLoadRect = w := by
  subst h
  exact View.readCov_cons_toLoadRect v _ w L

/-- The same of contents given as what they read: the payload laid over them, loaded through its own rectangle. -/
theorem ld_overlay_unit_congr {off off' size : Fin s.rank → ℕ}
    (inb : ∀ a, off a + size a ≤ s.size a) (inb' : ∀ a, off' a + size a ≤ s.size a) (X : s.Idx → Val e)
    (w : (Rect.unit off size inb).shape.Idx → Val e) (h : off = off') :
    View.ld ((Rect.unit off size inb).overlay X w) (Rect.unit off' size inb') = w := by
  subst h
  funext x
  exact Rect.overlay_emb _ X w x

end Idealize.ShloMosaic.View
-- ==== Proof.K.Run00.lean ====
/-
  The body's run at a point on the first row tile and the first column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_00 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : k0_cond1 i = 1#1) (h2 : cJ0 i) (h3 : ¬ cJpos i) (h4 : ¬ k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Run0m.lean ====
/-
  The body's run at a point on the first row tile and a middle column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_0m (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Run03.lean ====
/-
  The body's run at a point on the first row tile and the last column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_03 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Runm0.lean ====
/-
  The body's run at a point on a middle row tile and the first column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_m0 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : cJ0 i) (h3 : ¬ cJpos i) (h4 : ¬ k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Runmm.lean ====
/-
  The body's run at a point on a middle row tile and a middle column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_mm (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Runm3.lean ====
/-
  The body's run at a point on a middle row tile and the last column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_m3 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Run30.lean ====
/-
  The body's run at a point on the last row tile and the first column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_30 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : cJ0 i) (h3 : ¬ cJpos i) (h4 : ¬ k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Run3m.lean ====
/-
  The body's run at a point on the last row tile and a middle column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_3m (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Run33.lean ====
/-
  The body's run at a point on the last row tile and the last column tile of a batch: the branches the point takes are decided by its hypotheses, the loads and stores are stepped, and what the three carried buffers hold afterwards is the model's `step` at these branches.
-/
import proofs.«171129_j67413806678291_1_alg».proof.Proof.K.Model
import proofs.«171129_j67413806678291_1_alg».proof.Proof.LibOverlay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_33 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.Kernel.Hand

end
-- ==== Proof.K.Body.lean ====
/-
  The frame of the distance kernel, at any float instance.

  The pipeline's proof data name what each staging buffer holds after the body at each of the 128 points: the two
  inputs their blocks, the output block the model's `(stAt t).o`.  The invariant carried from point to point holds
  the row-minimum scratch at the model's contents exactly and the column-minimum scratch at SOME contents that agree
  with the model's on the columns written so far in the batch (the scratch starts at contents nobody names, and a
  batch's first row tile overwrites it slice by slice).  The body obligation at a point is the body's run there
  (one of nine, by the point's row and column tile) from the buffers as the invariant and the pipeline hand them
  over, the model's `step` being insensitive to everything the invariant leaves unnamed (`step_congr`).
-/
import proofs.«171129_j67413806678291_1_alg».proof.Proof.K.StepLaws
import proofs.«171129_j67413806678291_1_alg».proof.Proof.K.Dats
import proofs.«171129_j67413806678291_1_alg».proof.Proof.K.Run00
import proofs.«171129_j67413806678291_1_alg».proof.Proof.K.Run0m
import proofs.«171129_j67413806678291_1_alg».proof.Proof.K.Run03
import proofs.«171129_j67413806678291_1_alg».proof.Proof.K.Runm0
import proofs.«171129_j67413806678291_1_alg».proof.Proof.K.Runmm
import proofs.«171129_j67413806678291_1_alg».proof.Proof.K.Runm3
import proofs.«171129_j67413806678291_1_alg».proof.Proof.K.Run30
import proofs.«171129_j67413806678291_1_alg».proof.Proof.K.Run3m
import proofs.«171129_j67413806678291_1_alg».proof.Proof.K.Run33

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at any point -/

/-- At every point the body runs from the five buffers at any contents to the same buffers at the model's `step`:
    the nine runs, chosen by the point's row tile (first, middle, last) and column tile. -/
theorem run_any (c : Dev nD) (t : Fin cfg0.N) (x0 y0 : Vec F S1x1024x128 .f32) (st : St F) (E : Set ℕ) (K : PUnit → sProp 𝕄) :
    iprop(owns (c : Thread nD τ) (ms0 t) fullShare x0 ∗ owns (c : Thread nD τ) (ms1 t) fullShare y0 ∗ owns (c : Thread nD τ) (ms2 t) fullShare st.o
        ∗ owns (c : Thread nD τ) scM0 fullShare st.s0 ∗ owns (c : Thread nD τ) scM1 fullShare st.s1
        ∗ (iprop(owns (c : Thread nD τ) (ms0 t) fullShare x0 ∗ owns (c : Thread nD τ) (ms1 t) fullShare y0 ∗ owns (c : Thread nD τ) (ms2 t) fullShare (step (grid0.coords t) x0 y0 st).o
            ∗ owns (c : Thread nD τ) scM0 fullShare (step (grid0.coords t) x0 y0 st).s0 ∗ owns (c : Thread nD τ) scM1 fullShare (step (grid0.coords t) x0 y0 st).s1) -∗ K ⟨⟩))
      ⊢ wp frame (wpE (defs₀ (F := F)) Variants.none c none) E (bodyAt0 t) K := by
  have hN : t.val < 128 := lt_of_lt_of_eq t.isLt (show cfg0.N = 128 from N_0)
  rcases (show t.val / 4 % 4 = 0 ∨ (t.val / 4 % 4 ≠ 0 ∧ t.val / 4 % 4 ≠ 3) ∨ t.val / 4 % 4 = 3 by omega) with hi | hi | hi <;>
  rcases (show t.val % 4 = 0 ∨ (t.val % 4 ≠ 0 ∧ t.val % 4 ≠ 3) ∨ t.val % 4 = 3 by omega) with hj | hj | hj
  · exact run_00 c (grid0.coords t) _ _ _ _ _ _ _ _ _ _ ((hc1 t).mpr (by omega)) ((hcJ0 t).mpr (by omega)) (fun h => by have := (hcJpos t).mp h; omega) (fun h => by have := (hc4 t).mp h; omega) ((hc5 t).mpr (by omega)) (fun h => by have := (hc6 t).mp h; omega) (fun h => by have := (hc7 t).mp h; omega) x0 y0 st E K
  · exact run_0m c (grid0.coords t) _ _ _ _ _ _ _ _ _ _ (fun h => by have := (hc1 t).mp h; omega) (fun h => by have := (hcJ0 t).mp h; omega) ((hcJpos t).mpr (by omega)) (fun h => by have := (hc4 t).mp h; omega) ((hc5 t).mpr (by omega)) (fun h => by have := (hc6 t).mp h; omega) (fun h => by have := (hc7 t).mp h; omega) x0 y0 st E K
  · exact run_03 c (grid0.coords t) _ _ _ _ _ _ _ _ _ _ (fun h => by have := (hc1 t).mp h; omega) (fun h => by have := (hcJ0 t).mp h; omega) ((hcJpos t).mpr (by omega)) ((hc4 t).mpr (by omega)) ((hc5 t).mpr (by omega)) (fun h => by have := (hc6 t).mp h; omega) (fun h => by have := (hc7 t).mp h; omega) x0 y0 st E K
  · exact run_m0 c (grid0.coords t) _ _ _ _ _ _ _ _ _ _ (fun h => by have := (hc1 t).mp h; omega) ((hcJ0 t).mpr (by omega)) (fun h => by have := (hcJpos t).mp h; omega) (fun h => by have := (hc4 t).mp h; omega) (fun h => by have := (hc5 t).mp h; omega) ((hc6 t).mpr (by omega)) (fun h => by have := (hc7 t).mp h; omega) x0 y0 st E K
  · exact run_mm c (grid0.coords t) _ _ _ _ _ _ _ _ _ _ (fun h => by have := (hc1 t).mp h; omega) (fun h => by have := (hcJ0 t).mp h; omega) ((hcJpos t).mpr (by omega)) (fun h => by have := (hc4 t).mp h; omega) (fun h => by have := (hc5 t).mp h; omega) ((hc6 t).mpr (by omega)) (fun h => by have := (hc7 t).mp h; omega) x0 y0 st E K
  · exact run_m3 c (grid0.coords t) _ _ _ _ _ _ _ _ _ _ (fun h => by have := (hc1 t).mp h; omega) (fun h => by have := (hcJ0 t).mp h; omega) ((hcJpos t).mpr (by omega)) ((hc4 t).mpr (by omega)) (fun h => by have := (hc5 t).mp h; omega) ((hc6 t).mpr (by omega)) (fun h => by have := (hc7 t).mp h; omega) x0 y0 st E K
  · exact run_30 c (grid0.coords t) _ _ _ _ _ _ _ _ _ _ (fun h => by have := (hc1 t).mp h; omega) ((hcJ0 t).mpr (by omega)) (fun h => by have := (hcJpos t).mp h; omega) (fun h => by have := (hc4 t).mp h; omega) (fun h => by have := (hc5 t).mp h; omega) ((hc6 t).mpr (by omega)) ((hc7 t).mpr (by omega)) x0 y0 st E K
  · exact run_3m c (grid0.coords t) _ _ _ _ _ _ _ _ _ _ (fun h => by have := (hc1 t).mp h; omega) (fun h => by have := (hcJ0 t).mp h; omega) ((hcJpos t).mpr (by omega)) (fun h => by have := (hc4 t).mp h; omega) (fun h => by have := (hc5 t).mp h; omega) ((hc6 t).mpr (by omega)) ((hc7 t).mpr (by omega)) x0 y0 st E K
  · exact run_33 c (grid0.coords t) _ _ _ _ _ _ _ _ _ _ (fun h => by have := (hc1 t).mp h; omega) (fun h => by have := (hcJ0 t).mp h; omega) ((hcJpos t).mpr (by omega)) ((hc4 t).mpr (by omega)) (fun h => by have := (hc5 t).mp h; omega) ((hc6 t).mpr (by omega)) ((hc7 t).mpr (by omega)) x0 y0 st E K

/-! ## The model against what the invariant and the pipeline hand the body -/

/-- From buffers that agree with the model's state before the point where the point reads them, the point's
    `step` ends at the model's state after it: on the output block, on the row-minimum scratch, and on the columns
    of the column-minimum scratch written by then. -/
theorem step_actual (c : Dev nD) (t : Fin cfg0.N) (oa : Vec F S1x8x128 .f32) (s0a : Vec F S1024x1 .f32) (d1 : Vec F S1x4096 .f32)
    (ho : t.val % 16 ≠ 0 → oa = (stBefore m c t.val t.isLt).o)
    (hs0 : t.val ≠ 0 → s0a = (stBefore m c t.val t.isLt).s0)
    (hs1 : t.val ≠ 0 → ∀ z : S1x4096.Idx, Known (t.val - 1) z → d1 z = (stBefore m c t.val t.isLt).s1 z) :
    (step (grid0.coords t) (xblk m c t) (yblk m c t) ⟨oa, s0a, d1⟩).o = (stAt m c t.val t.isLt).o
    ∧ (step (grid0.coords t) (xblk m c t) (yblk m c t) ⟨oa, s0a, d1⟩).s0 = (stAt m c t.val t.isLt).s0
    ∧ Agree m c t.val t.isLt (step (grid0.coords t) (xblk m c t) (yblk m c t) ⟨oa, s0a, d1⟩).s1 := by
  have hN : t.val < 128 := lt_of_lt_of_eq t.isLt (show cfg0.N = 128 from N_0)
  have hc := step_congr t (xblk m c t) (yblk m c t) ⟨oa, s0a, d1⟩ (stBefore m c t.val t.isLt) ho (fun h => hs0 (by omega)) (fun z hz => by
    have hz1 : (z 1).val < 4096 := (z 1).isLt
    by_cases h0 : t.val = 0
    · exfalso; rw [h0] at hz; omega
    · refine hs1 h0 z ?_
      unfold Known
      omega)
  rw [← stAt_eq m c t] at hc
  exact ⟨hc.1, hc.2.1, fun z hz => hc.2.2 z hz⟩

/-- The output block's staging buffer before the body at a point that is not a batch's first holds what the
    model's output block was after the point before: the block is never written back inside a batch, and a point
    that does not store into it hands it back as it found it. -/
theorem before2 (c : Dev nD) : ∀ (n : ℕ) (hn : n < cfg0.N) (d), n % 16 ≠ 0 →
    (dats m 0 c).before 2 ⟨n, hn⟩ d = (stBefore m c n hn).o := by
  intro n
  induction n using Nat.strong_induction_on with
  | _ n ih =>
    intro hn d h16
    have hN : n < 128 := lt_of_lt_of_eq hn (show cfg0.N = 128 from N_0)
    have hpos : n ≠ 0 := by omega
    rw [stBefore_pos m c n hn hpos]
    rw [(dats m 0 c).before_of_pos 2 ⟨n, hn⟩ hpos ((cfg0.win 2).fetch_out rfl _) d]
    rw [noFlush2 ⟨n - 1, Nat.lt_of_le_of_lt (Nat.sub_le _ _) hn⟩ (by show (n - 1) % 16 ≠ 15; omega), if_neg Bool.false_ne_true]
    unfold Dat.left
    by_cases hlive : ((n - 1) % 16 = 0 ∨ (n - 1) % 4 = 3 ∨ (n - 1) / 4 % 4 = 3)
    · rw [liveAt2 ⟨n - 1, Nat.lt_of_le_of_lt (Nat.sub_le _ _) hn⟩ hlive]
      dsimp only
      unfold Dat.kept
      rw [Pipeline.fill_of_clip_none (cfg := cfg0) 2 _ (fun _ => rfl) d ((dats m 0 c).after 2 _), Window.fill_cut, after2]
    · rw [idleAt2 ⟨n - 1, Nat.lt_of_le_of_lt (Nat.sub_le _ _) hn⟩ hlive]
      dsimp only
      rw [ih (n - 1) (by omega) _ d (by omega)]
      have e := stAt_eq m c ⟨n - 1, Nat.lt_of_le_of_lt (Nat.sub_le _ _) hn⟩
      rw [e]
      exact (step_o_idle ⟨n - 1, Nat.lt_of_le_of_lt (Nat.sub_le _ _) hn⟩ _ _ _ hlive).symm

/-- What the invariant hands the body before point `t`: both scratch buffers at contents that, after the first
    point, are the model's on the row minima and agree with it on the columns written so far; and the generator register. -/
theorem PhiS_before (c : Dev nD) (t : Fin cfg0.N) :
    PhiS m c t.val (Nat.le_of_lt t.isLt) ⊢
      iprop(∃ s0a d1, ⌜(t.val ≠ 0 → s0a = (stBefore m c t.val t.isLt).s0)
          ∧ (t.val ≠ 0 → ∀ z : S1x4096.Idx, Known (t.val - 1) z → d1 z = (stBefore m c t.val t.isLt).s1 z)⌝
        ∗ owns (c : Thread nD τ) scM0 fullShare s0a ∗ owns (c : Thread nD τ) scM1 fullShare d1 ∗ (∃ r, prngReg c r)) := by
  by_cases hz : t.val = 0
  · rw [PhiS_zero m c _ _ hz, PhiA0_eq]
    iintro ⟨⟨⟨%d0, HS0⟩, ⟨%d1, HS1⟩⟩, Hg⟩
    iexists d0, d1
    isplitr; · ipureintro; exact ⟨fun h => absurd hz h, fun h => absurd hz h⟩
    isplitl [HS0]; · iexact HS0
    isplitl [HS1]; · iexact HS1
    iexact Hg
  · rw [PhiS_pos m c _ _ hz]
    iintro ⟨⟨HS0, ⟨%d1, %hag, HS1⟩⟩, Hg⟩
    iexists _, d1
    isplitr
    · ipureintro
      refine ⟨fun _ => ?_, fun _ z hzk => ?_⟩
      · rw [stBefore_pos m c t.val t.isLt hz]
      · rw [stBefore_pos m c t.val t.isLt hz]; exact hag z hzk
    isplitl [HS0]; · iexact HS0
    isplitl [HS1]; · iexact HS1
    iexact Hg

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [PhiS_castSucc]
  iintro ⟨HΦ, Ho, ⟨%e0, H0⟩, ⟨%e1, H1⟩, ⟨%e2, H2⟩⟩
  ihave HΦ' := (PhiS_before m c t) $$ HΦ
  icases HΦ' with ⟨%s0a, %d1, %hinv, HS0, HS1, Hg⟩
  have hbef : t.val % 16 ≠ 0 → (dats m 0 c).before 2 t e2 = (stBefore m c t.val t.isLt).o := fun h => before2 m c t.val t.isLt e2 h
  obtain ⟨eo, es0, es1⟩ := step_actual m c t ((dats m 0 c).before 2 t e2) s0a d1 hbef hinv.1 hinv.2
  iapply (run_any c t (iblk m c 0 t) (iblk m c 1 t) ⟨(dats m 0 c).before 2 t e2, s0a, d1⟩ Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  rw [eo, es0]
  isplitl [HS0 HS1 Hg]
  · isplitl [HS0 HS1]
    · isplitl [HS0]; · iexact HS0
      iexists _; isplitr; · ipureintro; exact es1
      iexact HS1
    iexact Hg
  isplitl [Ho]; · iexact Ho
  isplitl [H0]; · iexact H0
  isplitl [H1]; · iexact H1
  by_cases hlive : (t.val % 16 = 0 ∨ t.val % 4 = 3 ∨ t.val / 4 % 4 = 3)
  · rw [show (dats m 0 c).leavesExact 2 t = owns (c : Thread nD τ) (ms2 t) fullShare ((dats m 0 c).after 2 t) from by
      unfold Dat.leavesExact; rw [liveAt2 t hlive], after2]
    iexact H2
  · rw [Dat.leavesExact_idle (dats m 0 c) 2 t (idleAt2 t hlive) (noFlush2 t (by omega))]
    iexists e2
    rw [hbef (by omega), stAt_eq, step_o_idle t _ _ _ hlive]
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch lent: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, ⟨%d1, %hag, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every final state has each array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The grid of the distance kernel is (batch b, row tile i, column tile j) = (8, 4, 4); point `t` is
  (t / 16, t / 4 % 4, t % 4).  The body's seven branches test j = 0, j > 0, j = 3, i = 0, i > 0, i = 3 and
  (i, j) = (0, 0); here each test is decided over the grid once, in closed form, together with where the
  output window is idle, where it is written back, and the column offset 1024 · j of the slice of the
  column-minimum scratch the point touches.
-/
import proofs.«171129_j67413806678291_1_alg».proof.Proof.Gen.KernelIdeal.Frame
import proofs.«171129_j67413806678291_1_alg».proof.Proof.Gen.KernelIdeal.Skeleton
import proofs.«171129_j67413806678291_1_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions the skeleton spells inline -/

/-- `j = 0` as the body computes it (the reset of the row-minimum scratch). -/
abbrev cJ0 (i : grid0.Coords) : Prop :=
  (Scalar.cmpi .ne (Scalar.extui (Scalar.cmpi .eq (BitVec.ofNat 32 (i 2).val) 0#32)) 0#32) = 1#1
/-- `j > 0` as the body computes it (the running minimum into the row-minimum scratch). -/
abbrev cJpos (i : grid0.Coords) : Prop :=
  (Scalar.cmpi .ne (Scalar.extui (Scalar.cmpi .sgt (BitVec.ofNat 32 (i 2).val) 0#32)) 0#32) = 1#1

/-! ## The conditions in closed form over the 128 points -/

theorem hc1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcJ0 : ∀ t : Fin cfg0.N, cJ0 (grid0.coords t) ↔ t.val % 4 = 0 :=
  (by decide +kernel : ∀ t : Fin grid0.N, cJ0 (grid0.coords t) ↔ t.val % 4 = 0)
theorem hcJpos : ∀ t : Fin cfg0.N, cJpos (grid0.coords t) ↔ t.val % 4 ≠ 0 :=
  (by decide +kernel : ∀ t : Fin grid0.N, cJpos (grid0.coords t) ↔ t.val % 4 ≠ 0)
theorem hc4 : ∀ t : Fin cfg0.N, k0_cond4 (grid0.coords t) = 1#1 ↔ t.val % 4 = 3 :=
  (by decide +kernel : ∀ t : Fin grid0.N, k0_cond4 (grid0.coords t) = 1#1 ↔ t.val % 4 = 3)
theorem hc5 : ∀ t : Fin cfg0.N, k0_cond5 (grid0.coords t) = 1#1 ↔ t.val / 4 % 4 = 0 :=
  (by decide +kernel : ∀ t : Fin grid0.N, k0_cond5 (grid0.coords t) = 1#1 ↔ t.val / 4 % 4 = 0)
theorem hc6 : ∀ t : Fin cfg0.N, k0_cond6 (grid0.coords t) = 1#1 ↔ t.val / 4 % 4 ≠ 0 :=
  (by decide +kernel : ∀ t : Fin grid0.N, k0_cond6 (grid0.coords t) = 1#1 ↔ t.val / 4 % 4 ≠ 0)
theorem hc7 : ∀ t : Fin cfg0.N, k0_cond7 (grid0.coords t) = 1#1 ↔ t.val / 4 % 4 = 3 :=
  (by decide +kernel : ∀ t : Fin grid0.N, k0_cond7 (grid0.coords t) = 1#1 ↔ t.val / 4 % 4 = 3)

/-- The point's coordinates: batch, row tile, column tile. -/
theorem coord_b : ∀ t : Fin cfg0.N, ((grid0.coords t) 0).val = t.val / 16 :=
  (by decide +kernel : ∀ t : Fin grid0.N, ((grid0.coords t) 0).val = t.val / 16)
theorem coord_i : ∀ t : Fin cfg0.N, ((grid0.coords t) 1).val = t.val / 4 % 4 :=
  (by decide +kernel : ∀ t : Fin grid0.N, ((grid0.coords t) 1).val = t.val / 4 % 4)
theorem coord_j : ∀ t : Fin cfg0.N, ((grid0.coords t) 2).val = t.val % 4 :=
  (by decide +kernel : ∀ t : Fin grid0.N, ((grid0.coords t) 2).val = t.val % 4)

/-! ## Where the windows are idle and where the output is written back -/

theorem liveAt0 : ∀ t : Fin cfg0.N, cfg0.idle 0 (grid0.coords t) = false := by decide +kernel
theorem liveAt1 : ∀ t : Fin cfg0.N, cfg0.idle 1 (grid0.coords t) = false := by decide +kernel
/-- The output's staging buffer is stored at (0, 0), at j = 3 and at i = 3, -/
theorem liveAt2 : ∀ t : Fin cfg0.N, (t.val % 16 = 0 ∨ t.val % 4 = 3 ∨ t.val / 4 % 4 = 3) → cfg0.idle 2 (grid0.coords t) = false :=
  (by decide +kernel : ∀ t : Fin grid0.N, (t.val % 16 = 0 ∨ t.val % 4 = 3 ∨ t.val / 4 % 4 = 3) → cfg0.idle 2 (grid0.coords t) = false)
/-- and untouched at the other points, -/
theorem idleAt2 : ∀ t : Fin cfg0.N, ¬(t.val % 16 = 0 ∨ t.val % 4 = 3 ∨ t.val / 4 % 4 = 3) → cfg0.idle 2 (grid0.coords t) = true :=
  (by decide +kernel : ∀ t : Fin grid0.N, ¬(t.val % 16 = 0 ∨ t.val % 4 = 3 ∨ t.val / 4 % 4 = 3) → cfg0.idle 2 (grid0.coords t) = true)
/-- and it is written back at the batch's last point only. -/
theorem noFlush2 (t : Fin cfg0.N) (h : t.val % 16 ≠ 15) : (cfg0.win 2).flush t = false := by
  cases hf : (cfg0.win 2).flush t with
  | false => rfl
  | true => exact absurd ((flush0_2 t).mp hf) h

/-! ## The memrefs the body is called with -/

abbrev ms0 (t : Fin cfg0.N) : Memref sig .tc .vmem S1x1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The row-minimum scratch (1024 × 1) and the column-minimum scratch (1 × 4096). -/
abbrev scM0 : Memref sig .tc .vmem S1024x1 .f32 := Memref.whole cc0_scratch0
abbrev scM1 : Memref sig .tc .vmem S1x4096 .f32 := Memref.whole cc0_scratch1

/-- What the launch lends the body beside the windows: both scratch buffers at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Hand

end
-- ==== Proof.KI.Model.lean ====
/-
  What one grid point does to the three buffers the kernel carries from point to point — the output block's
  staging buffer (8 × 128, only entry (0, 0) ever differs from zero), the row-minimum scratch (1024 × 1) and the
  column-minimum scratch (1 × 4096) — as ONE pure function `step` of the point's coordinates, its two input
  blocks and the three buffers' contents before it, at any float instance; and the contents after each of the
  128 points by recursion on the point (`stAt`).  The scratch buffers start at contents nobody names; the
  recursion starts from an arbitrary state, and the obligation shows which parts of it the run agrees with.
-/
import proofs.«171129_j67413806678291_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three carried buffers' contents. -/
structure St (F : FTy → Type) where
  /-- the output block's staging buffer -/
  o : Vec F S1x8x128 .f32
  /-- the running row minima of the current row tile -/
  s0 : Vec F S1024x1 .f32
  /-- the running column minima of the current batch, all four column tiles -/
  s1 : Vec F S1x4096 .f32

/-- The slice of the column-minimum scratch the point touches, spelt with each access's own offsets. -/
abbrev R1 (i : grid0.Coords) (h : k0_cond5 i = 1#1) : Rect S1x4096 := Rect.unit (s := S1x4096) (k0_off1 i) S1x1024.size (k0_off1_inb i h)
abbrev R2 (i : grid0.Coords) (h : k0_cond6 i = 1#1) : Rect S1x4096 := Rect.unit (s := S1x4096) (k0_off2 i) S1x1024.size (k0_off2_inb i h)
abbrev R3 (i : grid0.Coords) (h : k0_cond7 i = 1#1) : Rect S1x4096 := Rect.unit (s := S1x4096) (k0_off3 i) S1x1024.size (k0_off3_inb i h)

/-- The row-minimum scratch after a point: the tile's row minima stored (j = 0) or folded into what was there (j > 0). -/
def stepS0 (i : grid0.Coords) (x y : Vec F S1x1024x128 .f32) (s0 : Vec F S1024x1 .f32) : Vec F S1024x1 .f32 :=
  let s0a : Vec F S1024x1 .f32 := if cJ0 i then k0_pay10 x y else s0
  if cJpos i then k0_pay1 (k0_pay8 x y) s0a else s0a

/-- The column-minimum scratch after a point: the tile's column minima stored into (i = 0) or folded into (i > 0)
    the slice of columns 1024 j … 1024 j + 1023. -/
def stepS1 (i : grid0.Coords) (x y : Vec F S1x1024x128 .f32) (s1 : Vec F S1x4096 .f32) : Vec F S1x4096 .f32 :=
  let s1a : Vec F S1x4096 .f32 := if h : k0_cond5 i = 1#1 then (R1 i h).overlay s1 (k0_pay3 (k0_pay9 x y)) else s1
  if h : k0_cond6 i = 1#1 then (R2 i h).overlay s1a (k0_pay4 (k0_pay9 x y) (View.ld s1a (R2 i h))) else s1a

/-- The output block after a point, from the two scratch buffers as the point leaves them: zeroed at (i, j) = (0, 0);
    at j = 3 the sum of the row minima, scaled, added in; at i = 3 the sum of the slice's column minima, scaled, added in. -/
def stepO (i : grid0.Coords) (s0b : Vec F S1024x1 .f32) (s1b : Vec F S1x4096 .f32) (o : Vec F S1x8x128 .f32) : Vec F S1x8x128 .f32 :=
  let o1 : Vec F S1x8x128 .f32 := if k0_cond1 i = 1#1 then k0_pay6 else o
  let o2 : Vec F S1x8x128 .f32 := if k0_cond4 i = 1#1 then k0_pay2 s0b o1 else o1
  if h : k0_cond7 i = 1#1 then k0_pay5 (View.ld s1b (R3 i h)) o2 else o2

/-- One grid point. -/
def step (i : grid0.Coords) (x y : Vec F S1x1024x128 .f32) (st : St F) : St F :=
  ⟨stepO i (stepS0 i x y st.s0) (stepS1 i x y st.s1) st.o, stepS0 i x y st.s0, stepS1 i x y st.s1⟩

variable (m : (ℓ : Loc nD τ sig) → Buf (Elt F) ℓ)

/-- The two input blocks of point `t`: rows 1024 i … of batch b of the first argument, rows 1024 j … of batch b of the second. -/
abbrev xblk (c : Dev nD) (t : Fin cfg0.N) : Vec F S1x1024x128 .f32 := iblk m c 0 t
abbrev yblk (c : Dev nD) (t : Fin cfg0.N) : Vec F S1x1024x128 .f32 := iblk m c 1 t

/-- What the recursion starts from: any state will do (zeros), since no entry of it that matters survives the first points. -/
def st₀ : St F := ⟨fun _ => (Scalar.ofBits .f32 0x00000000#32 : F .f32), fun _ => (Scalar.ofBits .f32 0x00000000#32 : F .f32), fun _ => (Scalar.ofBits .f32 0x00000000#32 : F .f32)⟩

/-- The carried buffers after point `n`. -/
def stAt (c : Dev nD) : (n : ℕ) → n < cfg0.N → St F
  | 0, hn => step (grid0.coords ⟨0, hn⟩) (xblk m c ⟨0, hn⟩) (yblk m c ⟨0, hn⟩) st₀
  | n + 1, hn => step (grid0.coords ⟨n + 1, hn⟩) (xblk m c ⟨n + 1, hn⟩) (yblk m c ⟨n + 1, hn⟩) (stAt c n (Nat.lt_of_succ_lt hn))

/-- The carried buffers before point `n`. -/
def stBefore (c : Dev nD) (n : ℕ) (hn : n < cfg0.N) : St F :=
  match n, hn with
  | 0, _ => st₀
  | n + 1, hn => stAt m c n (Nat.lt_of_succ_lt hn)

theorem stAt_eq (c : Dev nD) (t : Fin cfg0.N) :
    stAt m c t.val t.isLt = step (grid0.coords t) (xblk m c t) (yblk m c t) (stBefore m c t.val t.isLt) := by
  obtain ⟨n, hn⟩ := t
  cases n with
  | zero => rfl
  | succ n => rfl

theorem stBefore_pos (c : Dev nD) (n : ℕ) (hn : n < cfg0.N) (h0 : n ≠ 0) :
    stBefore m c n hn = stAt m c (n - 1) (Nat.lt_of_le_of_lt (Nat.sub_le _ _) hn) := by
  cases n with
  | zero => exact absurd rfl h0
  | succ n => rfl

end Cert.KernelIdeal.Hand

end
-- ==== Proof.KI.StepLaws.lean ====
/-
  How one grid point's `step` depends on the three carried buffers it starts from: on the output block only away
  from a batch's first point (which zeroes it), on the row-minimum scratch only at j > 0 (j = 0 overwrites it), and
  on the column-minimum scratch only through the columns already written in this batch — columns below 1024 j on
  the batch's first row tile, all of them afterwards.  So two starting states that agree on those parts end in
  states that agree on the output block, on the row-minimum scratch, and on the columns written by then.  And at a
  point that neither zeroes the output block nor adds into it the block is left as it was.
-/
import proofs.«171129_j67413806678291_1_alg».proof.Proof.KI.Model

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem stepS0_congr (t : Fin cfg0.N) (x y : Vec F S1x1024x128 .f32) (s s' : Vec F S1024x1 .f32)
    (h : t.val % 4 ≠ 0 → s = s') : stepS0 (grid0.coords t) x y s = stepS0 (grid0.coords t) x y s' := by
  by_cases h0 : t.val % 4 = 0
  · unfold stepS0
    simp only [if_pos ((hcJ0 t).mpr h0)]
  · rw [h h0]

/-- Columns [1024 j, 1024 j + 1024) of the one row: membership in the slice the point touches. -/
theorem mem_R1_iff (t : Fin cfg0.N) (h : k0_cond5 (grid0.coords t) = 1#1) (z : S1x4096.Idx) :
    z ∈ (R1 (grid0.coords t) h).set ↔ 1024 * (t.val % 4) ≤ (z 1).val ∧ (z 1).val < 1024 * (t.val % 4) + 1024 := by
  have e : k0_off1 (grid0.coords t) = ![0, 1024 * (t.val % 4)] := by rw [k0_off1_eq, coord_j]
  unfold R1
  rw [Rect.mem_set_unit]
  constructor
  · intro H
    have := H 1
    rw [e] at this
    exact this
  · intro H a
    rw [e]
    match a with
    | ⟨0, _⟩ =>
      have h0 : (z 0).val < 1 := (z 0).isLt
      exact ⟨Nat.zero_le _, by show (z 0).val < 0 + 1; omega⟩
    | ⟨1, _⟩ => exact H

theorem stepS1_congr (t : Fin cfg0.N) (x y : Vec F S1x1024x128 .f32) (s s' : Vec F S1x4096 .f32)
    (h : ∀ z : S1x4096.Idx, ((z 1).val < 1024 * (t.val % 4) ∨ 1 ≤ t.val / 4 % 4) → s z = s' z) :
    ∀ z : S1x4096.Idx, ((z 1).val < 1024 * (t.val % 4 + 1) ∨ 1 ≤ t.val / 4 % 4) →
      stepS1 (grid0.coords t) x y s z = stepS1 (grid0.coords t) x y s' z := by
  intro z hz
  by_cases hi : t.val / 4 % 4 = 0
  · have h5 : k0_cond5 (grid0.coords t) = 1#1 := (hc5 t).mpr hi
    have h6 : ¬ k0_cond6 (grid0.coords t) = 1#1 := fun H => (hc6 t).mp H hi
    unfold stepS1
    simp only [dif_pos h5, dif_neg h6]
    by_cases hm : z ∈ (R1 (grid0.coords t) h5).set
    · obtain ⟨w, rfl⟩ := (R1 (grid0.coords t) h5).exists_idx_of_mem hm
      exact ((R1 (grid0.coords t) h5).overlay_emb s _ w).trans ((R1 (grid0.coords t) h5).overlay_emb s' _ w).symm
    · rw [Rect.overlay_of_not_mem _ _ _ hm, Rect.overlay_of_not_mem _ _ _ hm]
      refine h z (Or.inl ?_)
      have hm' := mt (mem_R1_iff t h5 z).mpr hm
      rcases hz with hz | hz
      · omega
      · omega
  · have e : s = s' := funext fun z => h z (Or.inr (by omega))
    rw [e]

theorem stepO_congr (t : Fin cfg0.N) (s0b : Vec F S1024x1 .f32) (s1b s1b' : Vec F S1x4096 .f32) (o o' : Vec F S1x8x128 .f32)
    (ho : t.val % 16 ≠ 0 → o = o') (hs : t.val / 4 % 4 = 3 → s1b = s1b') :
    stepO (grid0.coords t) s0b s1b o = stepO (grid0.coords t) s0b s1b' o' := by
  have e1 : (if k0_cond1 (grid0.coords t) = 1#1 then (k0_pay6 : Vec F S1x8x128 .f32) else o)
      = (if k0_cond1 (grid0.coords t) = 1#1 then (k0_pay6 : Vec F S1x8x128 .f32) else o') := by
    by_cases h0 : t.val % 16 = 0
    · rw [if_pos ((hc1 t).mpr h0), if_pos ((hc1 t).mpr h0)]
    · rw [ho h0]
  unfold stepO
  simp only [e1]
  by_cases h7 : t.val / 4 % 4 = 3
  · rw [hs h7]
  · simp only [dif_neg (fun H => h7 ((hc7 t).mp H))]

/-- Two starting states that agree where the point reads them end in states that agree where later points read. -/
theorem step_congr (t : Fin cfg0.N) (x y : Vec F S1x1024x128 .f32) (st st' : St F)
    (ho : t.val % 16 ≠ 0 → st.o = st'.o) (hs0 : t.val % 4 ≠ 0 → st.s0 = st'.s0)
    (hs1 : ∀ z : S1x4096.Idx, ((z 1).val < 1024 * (t.val % 4) ∨ 1 ≤ t.val / 4 % 4) → st.s1 z = st'.s1 z) :
    (step (grid0.coords t) x y st).o = (step (grid0.coords t) x y st').o
    ∧ (step (grid0.coords t) x y st).s0 = (step (grid0.coords t) x y st').s0
    ∧ ∀ z : S1x4096.Idx, ((z 1).val < 1024 * (t.val % 4 + 1) ∨ 1 ≤ t.val / 4 % 4) →
        (step (grid0.coords t) x y st).s1 z = (step (grid0.coords t) x y st').s1 z := by
  have e0 := stepS0_congr t x y st.s0 st'.s0 hs0
  have e1 := stepS1_congr t x y st.s1 st'.s1 hs1
  refine ⟨?_, e0, e1⟩
  show stepO _ (stepS0 _ x y st.s0) (stepS1 _ x y st.s1) st.o = stepO _ (stepS0 _ x y st'.s0) (stepS1 _ x y st'.s1) st'.o
  rw [e0]
  exact stepO_congr t _ _ _ _ _ ho (fun h7 => funext fun z => e1 z (Or.inr (by omega)))

/-- A point that is neither a batch's first, nor on the last column tile, nor on the last row tile leaves the output block as it found it. -/
theorem step_o_idle (t : Fin cfg0.N) (x y : Vec F S1x1024x128 .f32) (st : St F)
    (h : ¬(t.val % 16 = 0 ∨ t.val % 4 = 3 ∨ t.val / 4 % 4 = 3)) : (step (grid0.coords t) x y st).o = st.o := by
  show stepO _ _ _ st.o = st.o
  unfold stepO
  simp only [if_neg (fun H => h (Or.inl ((hc1 t).mp H))), if_neg (fun H => h (Or.inr (Or.inl ((hc4 t).mp H)))),
    dif_neg (fun H => h (Or.inr (Or.inr ((hc7 t).mp H))))]

end Cert.KernelIdeal.Hand

end
-- ==== Proof.KI.Dats.lean ====
/-
  The pipeline's proof data for the distance kernel, at any float instance: the arrays as the region finds them;
  after the body at point t the two inputs' staging buffers at their blocks and the output block's at the model's
  `(stAt t).o`; and the invariant carried between points — the row-minimum scratch at the model's contents, the
  column-minimum scratch at some contents agreeing with the model's on the columns written so far in the batch
  (columns below 1024 (j + 1) on the batch's first row tile, every column afterwards), the generator register.
-/
import proofs.«171129_j67413806678291_1_alg».proof.Proof.KI.Model

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The columns of the column-minimum scratch written in the batch by the end of point `n`. -/
def Known (n : ℕ) (z : S1x4096.Idx) : Prop := (z 1).val < 1024 * (n % 4 + 1) ∨ 1 ≤ n / 4 % 4

/-- Contents of the column-minimum scratch that agree with the model's after point `n` on the columns written by then. -/
def Agree (c : Dev nD) (n : ℕ) (hn : n < cfg0.N) (d1 : Vec F S1x4096 .f32) : Prop :=
  ∀ z : S1x4096.Idx, Known n z → d1 z = (stAt m c n hn).s1 z

/-- The invariant before position `n`: before the first point what the launch lends (both scratch buffers at
    anything); afterwards the row-minimum scratch at the model's contents after the point before, the
    column-minimum scratch at contents agreeing with the model's there, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).s0
      ∗ (∃ d1, ⌜Agree m c n hn d1⌝ ∗ owns (c : Thread nD τ) scM1 fullShare d1)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).s0
      ∗ (∃ d1, ⌜Agree m c n hn d1⌝ ∗ owns (c : Thread nD τ) scM1 fullShare d1)) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).s0
      ∗ (∃ d1, ⌜Agree m c (n - 1) (by omega) d1⌝ ∗ owns (c : Thread nD τ) scM1 fullShare d1)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).o
  Φ t := PhiS m c t.val (Nat.le_of_lt_succ t.isLt)
  q _ := fullShare
  owed _ := 0

/-- The output array after all 128 points, as the library computes it from the proof data (each batch's block written back at the batch's last point). -/
abbrev outArr (c : Dev nD) : Vec F S8x8x128 .f32 := (dats m 0 c).arrAt 2 cfg0.N

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).o := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.KernelIdeal.Hand

end
-- ==== Proof.KI.Run00.lean ====
/-
  The body's run at a point on the first row tile and the first column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_00 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : k0_cond1 i = 1#1) (h2 : cJ0 i) (h3 : ¬ cJpos i) (h4 : ¬ k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_pos h1, dif_pos h1, if_pos h2, dif_pos h2, if_neg h3, dif_neg h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Run0m.lean ====
/-
  The body's run at a point on the first row tile and a middle column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_0m (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Run03.lean ====
/-
  The body's run at a point on the first row tile and the last column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_03 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : k0_cond5 i = 1#1) (h6 : ¬ k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_pos h5, dif_pos h5, if_neg h6, dif_neg h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Runm0.lean ====
/-
  The body's run at a point on a middle row tile and the first column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_m0 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : cJ0 i) (h3 : ¬ cJpos i) (h4 : ¬ k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Runmm.lean ====
/-
  The body's run at a point on a middle row tile and a middle column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_mm (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Runm3.lean ====
/-
  The body's run at a point on a middle row tile and the last column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_m3 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : ¬ k0_cond5 i = 1#1) (h6 : k0_cond6 i = 1#1) (h7 : ¬ k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_neg h7, dif_neg h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Run30.lean ====
/-
  The body's run at a point on the last row tile and the first column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_30 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : cJ0 i) (h3 : ¬ cJpos i) (h4 : ¬ k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_pos h2, dif_pos h2, if_neg h3, dif_neg h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Run3m.lean ====
/-
  The body's run at a point on the last row tile and a middle column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_3m (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : ¬ k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_neg h4, dif_neg h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Run33.lean ====
/-
  The body's run at a point on the last row tile and the last column tile of a batch: the branches the point takes are decided by its hypotheses, the loads and stores are stepped, and what the three carried buffers hold afterwards is the model's `step` at these branches.
-/
import proofs.«171129_j67413806678291_1_alg».proof.Proof.KI.Model
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_33 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x4096 .f32) (harg7 : arg7.IsWhole)
    (h1 : ¬ k0_cond1 i = 1#1) (h2 : ¬ cJ0 i) (h3 : cJpos i) (h4 : k0_cond4 i = 1#1) (h5 : ¬ k0_cond5 i = 1#1) (h6 : k0_cond6 i = 1#1) (h7 : k0_cond7 i = 1#1)
    (x0 y0 : Vec F S1x1024x128 .f32) (st : St F) (E : Set ℕ) (K : PUnit → sProp 𝕄) :
    iprop(owns (c : Thread nD τ) arg3 fullShare x0 ∗ owns (c : Thread nD τ) arg4 fullShare y0 ∗ owns (c : Thread nD τ) arg5 fullShare st.o
        ∗ owns (c : Thread nD τ) arg6 fullShare st.s0 ∗ owns (c : Thread nD τ) arg7 fullShare st.s1
        ∗ (iprop(owns (c : Thread nD τ) arg3 fullShare x0 ∗ owns (c : Thread nD τ) arg4 fullShare y0 ∗ owns (c : Thread nD τ) arg5 fullShare (step i x0 y0 st).o
            ∗ owns (c : Thread nD τ) arg6 fullShare (step i x0 y0 st).s0 ∗ owns (c : Thread nD τ) arg7 fullShare (step i x0 y0 st).s1) -∗ K ⟨⟩))
      ⊢ wp frame (wpE (defs₀ (F := F)) Variants.none c none) E (cc0__chamfer_kernel i arg3 harg3 arg4 harg4 arg5 harg5 arg6 harg6 arg7 harg7) K := by
  obtain ⟨so, ss0, ss1⟩ := st
  have hz3 : (![0, 0, 0] : Fin 3 → ℕ) = fun _ => 0 := by funext a; fin_cases a <;> rfl
  have hz2 : (![0, 0] : Fin 2 → ℕ) = fun _ => 0 := by funext a; fin_cases a <;> rfl
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact h1 | exact h2 | exact h3 | exact h4 | exact h5 | exact h6 | exact h7)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  isplitl [H3]
  · iexists _; isplitr
    swap; · iexact H3
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl
  · iexists _; isplitr
    swap; · iexact H4
    ipureintro
    sl_unfold_run_names
    simp only [step, stepO, stepS0, stepS1, if_neg h1, dif_neg h1, if_neg h2, dif_neg h2, if_pos h3, dif_pos h3, if_pos h4, dif_pos h4, if_neg h5, dif_neg h5, if_pos h6, dif_pos h6, if_pos h7, dif_pos h7,
      View.read_writes_unit_zero (s := S1x8x128) _ _ hz3, View.read_writes_unit_zero (s := S1024x1) _ _ hz2, View.read_writes_overlay,
      View.read_writes_cons_unit_zero (s := S1x8x128) _ _ hz3, View.read_writes_cons_unit_zero (s := S1024x1) _ _ hz2,
      View.readCov_unit_zero (S := S1x8x128) _ hz3, View.readCov_unit_zero (S := S1024x1) _ hz2,
      View.readCov_unit_congr (s := S1x4096) _ _ _ _ _ ((k0_off2_eq i).trans (k0_off3_eq i).symm), View.readCov_unit_congr (s := S1x4096) _ _ _ _ _ ((k0_off1_eq i).trans (k0_off3_eq i).symm),
      View.ld_overlay_unit_congr (s := S1x4096) _ _ _ _ ((k0_off2_eq i).trans (k0_off3_eq i).symm), View.ld_overlay_unit_congr (s := S1x4096) _ _ _ _ ((k0_off1_eq i).trans (k0_off3_eq i).symm),
      View.readAt_eq_ld, harg3.read_unread, harg4.read_unread, harg5.read_unread, harg6.read_unread, harg7.read_unread,
      View.ld_unit_zero (S := S1x1024x128) hz3, View.ld_unit_zero (S := S1x8x128) hz3, View.ld_unit_zero (S := S1024x1) hz2]
    try rfl

end Cert.KernelIdeal.Hand

end
-- ==== Proof.KI.Body.lean ====
/-
  The frame of the distance kernel, at any float instance.

  The pipeline's proof data name what each staging buffer holds after the body at each of the 128 points: the two
  inputs their blocks, the output block the model's `(stAt t).o`.  The invariant carried from point to point holds
  the row-minimum scratch at the model's contents exactly and the column-minimum scratch at SOME contents that agree
  with the model's on the columns written so far in the batch (the scratch starts at contents nobody names, and a
  batch's first row tile overwrites it slice by slice).  The body obligation at a point is the body's run there
  (one of nine, by the point's row and column tile) from the buffers as the invariant and the pipeline hand them
  over, the model's `step` being insensitive to everything the invariant leaves unnamed (`step_congr`).
-/
import proofs.«171129_j67413806678291_1_alg».proof.Proof.KI.StepLaws
import proofs.«171129_j67413806678291_1_alg».proof.Proof.KI.Dats
import proofs.«171129_j67413806678291_1_alg».proof.Proof.KI.Run00
import proofs.«171129_j67413806678291_1_alg».proof.Proof.KI.Run0m
import proofs.«171129_j67413806678291_1_alg».proof.Proof.KI.Run03
import proofs.«171129_j67413806678291_1_alg».proof.Proof.KI.Runm0
import proofs.«171129_j67413806678291_1_alg».proof.Proof.KI.Runmm
import proofs.«171129_j67413806678291_1_alg».proof.Proof.KI.Runm3
import proofs.«171129_j67413806678291_1_alg».proof.Proof.KI.Run30
import proofs.«171129_j67413806678291_1_alg».proof.Proof.KI.Run3m
import proofs.«171129_j67413806678291_1_alg».proof.Proof.KI.Run33

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at any point -/

/-- At every point the body runs from the five buffers at any contents to the same buffers at the model's `step`:
    the nine runs, chosen by the point's row tile (first, middle, last) and column tile. -/
theorem run_any (c : Dev nD) (t : Fin cfg0.N) (x0 y0 : Vec F S1x1024x128 .f32) (st : St F) (E : Set ℕ) (K : PUnit → sProp 𝕄) :
    iprop(owns (c : Thread nD τ) (ms0 t) fullShare x0 ∗ owns (c : Thread nD τ) (ms1 t) fullShare y0 ∗ owns (c : Thread nD τ) (ms2 t) fullShare st.o
        ∗ owns (c : Thread nD τ) scM0 fullShare st.s0 ∗ owns (c : Thread nD τ) scM1 fullShare st.s1
        ∗ (iprop(owns (c : Thread nD τ) (ms0 t) fullShare x0 ∗ owns (c : Thread nD τ) (ms1 t) fullShare y0 ∗ owns (c : Thread nD τ) (ms2 t) fullShare (step (grid0.coords t) x0 y0 st).o
            ∗ owns (c : Thread nD τ) scM0 fullShare (step (grid0.coords t) x0 y0 st).s0 ∗ owns (c : Thread nD τ) scM1 fullShare (step (grid0.coords t) x0 y0 st).s1) -∗ K ⟨⟩))
      ⊢ wp frame (wpE (defs₀ (F := F)) Variants.none c none) E (bodyAt0 t) K := by
  have hN : t.val < 128 := lt_of_lt_of_eq t.isLt (show cfg0.N = 128 from N_0)
  rcases (show t.val / 4 % 4 = 0 ∨ (t.val / 4 % 4 ≠ 0 ∧ t.val / 4 % 4 ≠ 3) ∨ t.val / 4 % 4 = 3 by omega) with hi | hi | hi <;>
  rcases (show t.val % 4 = 0 ∨ (t.val % 4 ≠ 0 ∧ t.val % 4 ≠ 3) ∨ t.val % 4 = 3 by omega) with hj | hj | hj
  · exact run_00 c (grid0.coords t) _ _ _ _ _ _ _ _ _ _ ((hc1 t).mpr (by omega)) ((hcJ0 t).mpr (by omega)) (fun h => by have := (hcJpos t).mp h; omega) (fun h => by have := (hc4 t).mp h; omega) ((hc5 t).mpr (by omega)) (fun h => by have := (hc6 t).mp h; omega) (fun h => by have := (hc7 t).mp h; omega) x0 y0 st E K
  · exact run_0m c (grid0.coords t) _ _ _ _ _ _ _ _ _ _ (fun h => by have := (hc1 t).mp h; omega) (fun h => by have := (hcJ0 t).mp h; omega) ((hcJpos t).mpr (by omega)) (fun h => by have := (hc4 t).mp h; omega) ((hc5 t).mpr (by omega)) (fun h => by have := (hc6 t).mp h; omega) (fun h => by have := (hc7 t).mp h; omega) x0 y0 st E K
  · exact run_03 c (grid0.coords t) _ _ _ _ _ _ _ _ _ _ (fun h => by have := (hc1 t).mp h; omega) (fun h => by have := (hcJ0 t).mp h; omega) ((hcJpos t).mpr (by omega)) ((hc4 t).mpr (by omega)) ((hc5 t).mpr (by omega)) (fun h => by have := (hc6 t).mp h; omega) (fun h => by have := (hc7 t).mp h; omega) x0 y0 st E K
  · exact run_m0 c (grid0.coords t) _ _ _ _ _ _ _ _ _ _ (fun h => by have := (hc1 t).mp h; omega) ((hcJ0 t).mpr (by omega)) (fun h => by have := (hcJpos t).mp h; omega) (fun h => by have := (hc4 t).mp h; omega) (fun h => by have := (hc5 t).mp h; omega) ((hc6 t).mpr (by omega)) (fun h => by have := (hc7 t).mp h; omega) x0 y0 st E K
  · exact run_mm c (grid0.coords t) _ _ _ _ _ _ _ _ _ _ (fun h => by have := (hc1 t).mp h; omega) (fun h => by have := (hcJ0 t).mp h; omega) ((hcJpos t).mpr (by omega)) (fun h => by have := (hc4 t).mp h; omega) (fun h => by have := (hc5 t).mp h; omega) ((hc6 t).mpr (by omega)) (fun h => by have := (hc7 t).mp h; omega) x0 y0 st E K
  · exact run_m3 c (grid0.coords t) _ _ _ _ _ _ _ _ _ _ (fun h => by have := (hc1 t).mp h; omega) (fun h => by have := (hcJ0 t).mp h; omega) ((hcJpos t).mpr (by omega)) ((hc4 t).mpr (by omega)) (fun h => by have := (hc5 t).mp h; omega) ((hc6 t).mpr (by omega)) (fun h => by have := (hc7 t).mp h; omega) x0 y0 st E K
  · exact run_30 c (grid0.coords t) _ _ _ _ _ _ _ _ _ _ (fun h => by have := (hc1 t).mp h; omega) ((hcJ0 t).mpr (by omega)) (fun h => by have := (hcJpos t).mp h; omega) (fun h => by have := (hc4 t).mp h; omega) (fun h => by have := (hc5 t).mp h; omega) ((hc6 t).mpr (by omega)) ((hc7 t).mpr (by omega)) x0 y0 st E K
  · exact run_3m c (grid0.coords t) _ _ _ _ _ _ _ _ _ _ (fun h => by have := (hc1 t).mp h; omega) (fun h => by have := (hcJ0 t).mp h; omega) ((hcJpos t).mpr (by omega)) (fun h => by have := (hc4 t).mp h; omega) (fun h => by have := (hc5 t).mp h; omega) ((hc6 t).mpr (by omega)) ((hc7 t).mpr (by omega)) x0 y0 st E K
  · exact run_33 c (grid0.coords t) _ _ _ _ _ _ _ _ _ _ (fun h => by have := (hc1 t).mp h; omega) (fun h => by have := (hcJ0 t).mp h; omega) ((hcJpos t).mpr (by omega)) ((hc4 t).mpr (by omega)) (fun h => by have := (hc5 t).mp h; omega) ((hc6 t).mpr (by omega)) ((hc7 t).mpr (by omega)) x0 y0 st E K

/-! ## The model against what the invariant and the pipeline hand the body -/

/-- From buffers that agree with the model's state before the point where the point reads them, the point's
    `step` ends at the model's state after it: on the output block, on the row-minimum scratch, and on the columns
    of the column-minimum scratch written by then. -/
theorem step_actual (c : Dev nD) (t : Fin cfg0.N) (oa : Vec F S1x8x128 .f32) (s0a : Vec F S1024x1 .f32) (d1 : Vec F S1x4096 .f32)
    (ho : t.val % 16 ≠ 0 → oa = (stBefore m c t.val t.isLt).o)
    (hs0 : t.val ≠ 0 → s0a = (stBefore m c t.val t.isLt).s0)
    (hs1 : t.val ≠ 0 → ∀ z : S1x4096.Idx, Known (t.val - 1) z → d1 z = (stBefore m c t.val t.isLt).s1 z) :
    (step (grid0.coords t) (xblk m c t) (yblk m c t) ⟨oa, s0a, d1⟩).o = (stAt m c t.val t.isLt).o
    ∧ (step (grid0.coords t) (xblk m c t) (yblk m c t) ⟨oa, s0a, d1⟩).s0 = (stAt m c t.val t.isLt).s0
    ∧ Agree m c t.val t.isLt (step (grid0.coords t) (xblk m c t) (yblk m c t) ⟨oa, s0a, d1⟩).s1 := by
  have hN : t.val < 128 := lt_of_lt_of_eq t.isLt (show cfg0.N = 128 from N_0)
  have hc := step_congr t (xblk m c t) (yblk m c t) ⟨oa, s0a, d1⟩ (stBefore m c t.val t.isLt) ho (fun h => hs0 (by omega)) (fun z hz => by
    have hz1 : (z 1).val < 4096 := (z 1).isLt
    by_cases h0 : t.val = 0
    · exfalso; rw [h0] at hz; omega
    · refine hs1 h0 z ?_
      unfold Known
      omega)
  rw [← stAt_eq m c t] at hc
  exact ⟨hc.1, hc.2.1, fun z hz => hc.2.2 z hz⟩

/-- The output block's staging buffer before the body at a point that is not a batch's first holds what the
    model's output block was after the point before: the block is never written back inside a batch, and a point
    that does not store into it hands it back as it found it. -/
theorem before2 (c : Dev nD) : ∀ (n : ℕ) (hn : n < cfg0.N) (d), n % 16 ≠ 0 →
    (dats m 0 c).before 2 ⟨n, hn⟩ d = (stBefore m c n hn).o := by
  intro n
  induction n using Nat.strong_induction_on with
  | _ n ih =>
    intro hn d h16
    have hN : n < 128 := lt_of_lt_of_eq hn (show cfg0.N = 128 from N_0)
    have hpos : n ≠ 0 := by omega
    rw [stBefore_pos m c n hn hpos]
    rw [(dats m 0 c).before_of_pos 2 ⟨n, hn⟩ hpos ((cfg0.win 2).fetch_out rfl _) d]
    rw [noFlush2 ⟨n - 1, Nat.lt_of_le_of_lt (Nat.sub_le _ _) hn⟩ (by show (n - 1) % 16 ≠ 15; omega), if_neg Bool.false_ne_true]
    unfold Dat.left
    by_cases hlive : ((n - 1) % 16 = 0 ∨ (n - 1) % 4 = 3 ∨ (n - 1) / 4 % 4 = 3)
    · rw [liveAt2 ⟨n - 1, Nat.lt_of_le_of_lt (Nat.sub_le _ _) hn⟩ hlive]
      dsimp only
      unfold Dat.kept
      rw [Pipeline.fill_of_clip_none (cfg := cfg0) 2 _ (fun _ => rfl) d ((dats m 0 c).after 2 _), Window.fill_cut, after2]
    · rw [idleAt2 ⟨n - 1, Nat.lt_of_le_of_lt (Nat.sub_le _ _) hn⟩ hlive]
      dsimp only
      rw [ih (n - 1) (by omega) _ d (by omega)]
      have e := stAt_eq m c ⟨n - 1, Nat.lt_of_le_of_lt (Nat.sub_le _ _) hn⟩
      rw [e]
      exact (step_o_idle ⟨n - 1, Nat.lt_of_le_of_lt (Nat.sub_le _ _) hn⟩ _ _ _ hlive).symm

/-- What the invariant hands the body before point `t`: both scratch buffers at contents that, after the first
    point, are the model's on the row minima and agree with it on the columns written so far; and the generator register. -/
theorem PhiS_before (c : Dev nD) (t : Fin cfg0.N) :
    PhiS m c t.val (Nat.le_of_lt t.isLt) ⊢
      iprop(∃ s0a d1, ⌜(t.val ≠ 0 → s0a = (stBefore m c t.val t.isLt).s0)
          ∧ (t.val ≠ 0 → ∀ z : S1x4096.Idx, Known (t.val - 1) z → d1 z = (stBefore m c t.val t.isLt).s1 z)⌝
        ∗ owns (c : Thread nD τ) scM0 fullShare s0a ∗ owns (c : Thread nD τ) scM1 fullShare d1 ∗ (∃ r, prngReg c r)) := by
  by_cases hz : t.val = 0
  · rw [PhiS_zero m c _ _ hz, PhiA0_eq]
    iintro ⟨⟨⟨%d0, HS0⟩, ⟨%d1, HS1⟩⟩, Hg⟩
    iexists d0, d1
    isplitr; · ipureintro; exact ⟨fun h => absurd hz h, fun h => absurd hz h⟩
    isplitl [HS0]; · iexact HS0
    isplitl [HS1]; · iexact HS1
    iexact Hg
  · rw [PhiS_pos m c _ _ hz]
    iintro ⟨⟨HS0, ⟨%d1, %hag, HS1⟩⟩, Hg⟩
    iexists _, d1
    isplitr
    · ipureintro
      refine ⟨fun _ => ?_, fun _ z hzk => ?_⟩
      · rw [stBefore_pos m c t.val t.isLt hz]
      · rw [stBefore_pos m c t.val t.isLt hz]; exact hag z hzk
    isplitl [HS0]; · iexact HS0
    isplitl [HS1]; · iexact HS1
    iexact Hg

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [PhiS_castSucc]
  iintro ⟨HΦ, Ho, ⟨%e0, H0⟩, ⟨%e1, H1⟩, ⟨%e2, H2⟩⟩
  ihave HΦ' := (PhiS_before m c t) $$ HΦ
  icases HΦ' with ⟨%s0a, %d1, %hinv, HS0, HS1, Hg⟩
  have hbef : t.val % 16 ≠ 0 → (dats m 0 c).before 2 t e2 = (stBefore m c t.val t.isLt).o := fun h => before2 m c t.val t.isLt e2 h
  obtain ⟨eo, es0, es1⟩ := step_actual m c t ((dats m 0 c).before 2 t e2) s0a d1 hbef hinv.1 hinv.2
  iapply (run_any c t (iblk m c 0 t) (iblk m c 1 t) ⟨(dats m 0 c).before 2 t e2, s0a, d1⟩ Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  rw [eo, es0]
  isplitl [HS0 HS1 Hg]
  · isplitl [HS0 HS1]
    · isplitl [HS0]; · iexact HS0
      iexists _; isplitr; · ipureintro; exact es1
      iexact HS1
    iexact Hg
  isplitl [Ho]; · iexact Ho
  isplitl [H0]; · iexact H0
  isplitl [H1]; · iexact H1
  by_cases hlive : (t.val % 16 = 0 ∨ t.val % 4 = 3 ∨ t.val / 4 % 4 = 3)
  · rw [show (dats m 0 c).leavesExact 2 t = owns (c : Thread nD τ) (ms2 t) fullShare ((dats m 0 c).after 2 t) from by
      unfold Dat.leavesExact; rw [liveAt2 t hlive], after2]
    iexact H2
  · rw [Dat.leavesExact_idle (dats m 0 c) 2 t (idleAt2 t hlive) (noFlush2 t (by omega))]
    iexists e2
    rw [hbef (by omega), stAt_eq, step_o_idle t _ _ _ hlive]
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch lent: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, ⟨%d1, %hag, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every final state has each array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.ArrayFinal.lean ====
/-
  The output array after the region: batch b's 8 × 128 block is written back once, at the batch's last point, so the
  array's entry (b, 0, 0) after the run is the output block's entry (0, 0, 0) as the model leaves it there.
-/
import proofs.«171129_j67413806678291_1_alg».proof.Proof.KI.Dats
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The output window's block index at point t is (t / 16, 0, 0): the batch. -/
theorem idx_out : ∀ t : Fin cfg0.N, win0_2.index t (0 : Fin 3) = t.val / 16
    ∧ win0_2.index t (1 : Fin 3) = 0 ∧ win0_2.index t (2 : Fin 3) = 0 :=
  (by decide +kernel : ∀ t : Fin grid0.N, win0_2.index t (0 : Fin 3) = t.val / 16
    ∧ win0_2.index t (1 : Fin 3) = 0 ∧ win0_2.index t (2 : Fin 3) = 0)

/-- An index of the output array is in point t's block iff each coordinate is in the block's range on its axis. -/
theorem mem_blk_out (t : Fin cfg0.N) (i : S8x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Two different points that write the output back write different batches' blocks. -/
theorem disj_out (t t' : Fin cfg0.N) (hf : (cfg0.win 2).flush t = true) (hf' : (cfg0.win 2).flush t' = true) (hne : t ≠ t') :
    Disjoint ((cfg0.win 2).blk t).view.set ((cfg0.win 2).blk t').view.set := by
  rw [Finset.disjoint_left]
  intro i hi hi'
  rw [mem_blk_out] at hi hi'
  have b0 : win0_2.index t (0 : Fin 3) * 1 ≤ (i 0).val ∧ (i 0).val < win0_2.index t (0 : Fin 3) * 1 + 1 := hi 0
  have b0' : win0_2.index t' (0 : Fin 3) * 1 ≤ (i 0).val ∧ (i 0).val < win0_2.index t' (0 : Fin 3) * 1 + 1 := hi' 0
  have e := (idx_out t).1
  have e' := (idx_out t').1
  have r := (flush0_2 t).mp hf
  have r' := (flush0_2 t').mp hf'
  exact hne (Fin.ext (by omega))

/-- The output array after all 128 points, at entry (b, 0, 0): what the body left in the output block at the batch's last point. -/
theorem final_out (c : Dev nD) (b : Fin 8) (h : 16 * b.val + 15 < cfg0.N) :
    outArr m c (ix3 b (0 : Fin 8) (0 : Fin 128))
      = (stAt m c (16 * b.val + 15) h).o (ix3 (0 : Fin 1) (0 : Fin 8) (0 : Fin 128)) := by
  have hf : (cfg0.win 2).flush (⟨16 * b.val + 15, h⟩ : Fin cfg0.N) = true :=
    (flush0_2 _).mpr (by show (16 * b.val + 15) % 16 = 15; omega)
  have key := (dats m 0 c).arrAt_emb_eq_flushed 2 disj_out ⟨16 * b.val + 15, h⟩ hf (ix3 (0 : Fin 1) (0 : Fin 8) (0 : Fin 128))
  have hemb : ((cfg0.win 2).blk (⟨16 * b.val + 15, h⟩ : Fin cfg0.N)).view.emb (ix3 (0 : Fin 1) (0 : Fin 8) (0 : Fin 128))
      = ix3 b (0 : Fin 8) (0 : Fin 128) := by
    obtain ⟨e0, e1, e2⟩ := idx_out ⟨16 * b.val + 15, h⟩
    have e0' : win0_2.index (⟨16 * b.val + 15, h⟩ : Fin cfg0.N) (0 : Fin 3) = (16 * b.val + 15) / 16 := e0
    funext a; apply Fin.ext
    match a with
    | ⟨0, _⟩ => show win0_2.index (⟨16 * b.val + 15, h⟩ : Fin cfg0.N) (0 : Fin 3) * 1 + 1 * 0 = b.val; omega
    | ⟨1, _⟩ => show win0_2.index (⟨16 * b.val + 15, h⟩ : Fin cfg0.N) (1 : Fin 3) * 8 + 1 * 0 = 0; omega
    | ⟨2, _⟩ => show win0_2.index (⟨16 * b.val + 15, h⟩ : Fin cfg0.N) (2 : Fin 3) * 128 + 1 * 0 = 0; omega
  rw [hemb] at key
  refine key.trans ?_
  show (dats m 0 c).after 2 (⟨16 * b.val + 15, h⟩ : Fin cfg0.N) (ix3 (0 : Fin 1) (0 : Fin 8) (0 : Fin 128)) = _
  rw [after2]

end Cert.KernelIdeal.Hand

end
-- ==== Proof.Spec.lean ====
/-
  The mathematics both programs compute, on the extended reals.

  For two batches of point sets X, Y (8 batches, 4096 points each, 128 coordinates) let
  `dist b n m = √ max(‖X b n‖² + ‖Y b m‖² − 2 ⟨X b n, Y b m⟩, 0)`.  The reference takes, per batch, the mean over m of
  the column minima `min_n dist` plus the mean over n of the row minima `min_m dist`, and then the mean over the
  batches (`refValue`).  The kernel walks the 4 × 4 tiles of 1024 × 1024 distances of a batch: per row tile it folds
  the four tiles' row minima together and adds their sum times 2⁻¹² to an accumulator, per column tile likewise for the
  column minima, in the order the grid visits them (`kerValue`).  All float literals stay the words the programs print.
-/
import Idealize.ShloMosaic.PureOps.Ideal
import Idealize.ShloMosaic.PureOps.Ideal.Laws
import Idealize.ShloMosaic.Lib.ValueIdx

noncomputable section

namespace Cert.Chamfer

open Idealize.ShloMosaic

/-- The literals of the two programs, as the extended reals their words denote. -/
abbrev two : EReal := Ideal.ofBits .f32 0x40000000#32
abbrev zero : EReal := Ideal.ofBits .f32 0x00000000#32
abbrev pinf : EReal := Ideal.ofBits .f32 0x7F800000#32
/-- the kernel's scale 2⁻¹² -/
abbrev k12 : EReal := Ideal.ofBits .f32 0x39800000#32
/-- the reference's divisors 4096 and 8 -/
abbrev c4096 : EReal := Ideal.ofBits .f32 0x45800000#32
abbrev c8 : EReal := Ideal.ofBits .f32 0x41000000#32

/-- An 8 × 4096 × 128 array as a function of (batch, point, coordinate). -/
def arr3 (x : (⟨3, ![8, 4096, 128]⟩ : Shape).Idx → EReal) (b : Fin 8) (n : Fin 4096) (d : Fin 128) : EReal := x (ValueIdx.ix3 b n d)

/-- The distance between point n of X and point m of Y in batch b. -/
def dist (X Y : Fin 8 → Fin 4096 → Fin 128 → EReal) (b : Fin 8) (n m : Fin 4096) : EReal :=
  Ideal.sqrt (max (((∑ d : Fin 128, X b n d * X b n d) + (∑ d : Fin 128, Y b m d * Y b m d)) - two * (∑ d : Fin 128, X b n d * Y b m d)) zero)

variable (D : Fin 8 → Fin 4096 → Fin 4096 → EReal)

/-! ## The reference -/

def rowMin (b : Fin 8) (n : Fin 4096) : EReal := (Finset.univ : Finset (Fin 4096)).fold min pinf (fun m => D b n m)
def colMin (b : Fin 8) (m : Fin 4096) : EReal := (Finset.univ : Finset (Fin 4096)).fold min pinf (fun n => D b n m)
/-- coverage + precision of batch b -/
def refBatch (b : Fin 8) : EReal :=
  Ideal.div (zero + ∑ m : Fin 4096, colMin D b m) c4096 + Ideal.div (zero + ∑ n : Fin 4096, rowMin D b n) c4096
def refValue : EReal := Ideal.div (zero + ∑ b : Fin 8, refBatch D b) c8

/-! ## The kernel -/

/-- Row (or column) r of tile i. -/
def tix (i : Fin 4) (r : Fin 1024) : Fin 4096 := ⟨1024 * i.val + r.val, by omega⟩
/-- The row minima and the column minima of tile (i, j) of batch b. -/
def tRow (b : Fin 8) (i j : Fin 4) (r : Fin 1024) : EReal := (Finset.univ : Finset (Fin 1024)).fold min pinf (fun q => D b (tix i r) (tix j q))
def tCol (b : Fin 8) (i j : Fin 4) (q : Fin 1024) : EReal := (Finset.univ : Finset (Fin 1024)).fold min pinf (fun r => D b (tix i r) (tix j q))
/-- The running minima after the fourth tile of the sweep (each step: min of what was there and the new tile's). -/
def accRow (b : Fin 8) (i : Fin 4) (r : Fin 1024) : EReal := min (min (min (tRow D b i 0 r) (tRow D b i 1 r)) (tRow D b i 2 r)) (tRow D b i 3 r)
def accCol (b : Fin 8) (j : Fin 4) (q : Fin 1024) : EReal := min (min (min (tCol D b 0 j q) (tCol D b 1 j q)) (tCol D b 2 j q)) (tCol D b 3 j q)
/-- What row tile i and column tile j add to the batch's accumulator. -/
def pTerm (b : Fin 8) (i : Fin 4) : EReal := (∑ r : Fin 1024, accRow D b i r) * k12
def cTerm (b : Fin 8) (j : Fin 4) : EReal := (∑ q : Fin 1024, accCol D b j q) * k12
/-- The accumulator of batch b after its sixteen points, in the grid's order of additions. -/
def kerBatch (b : Fin 8) : EReal :=
  ((((((((zero + pTerm D b 0) + pTerm D b 1) + pTerm D b 2) + cTerm D b 0) + cTerm D b 1) + cTerm D b 2) + pTerm D b 3) + cTerm D b 3)
def kerValue : EReal := Ideal.div (zero + ∑ b : Fin 8, kerBatch D b) c8

end Cert.Chamfer

end
-- ==== Proof.KI.Tail.lean ====
/-
  The host lines after the region: entry (b, 0, 0) of the output array for each batch, summed over the eight batches
  from zero and divided by eight.
-/
import proofs.«171129_j67413806678291_1_alg».proof.Proof.KI.Dats
import proofs.«171129_j67413806678291_1_alg».proof.Proof.Spec
import Idealize.ShloMosaic.Lib.ValueIdx
import Idealize.ShloMosaic.Lib.ValueIdxRank1
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer

variable (m : (ℓ : Loc nD τ sig) → Buf (Elt Ideal) ℓ)

/-! ## The host lines read at an index, over any array of the output's type -/

/-- The slice [0:8, 0:1, 0:1] at (b, 0, 0) is the array at (b, 0, 0). -/
theorem slice_at (A : (⟨S8x8x128, .f32⟩ : BufTy).Contents (Elt Ideal)) (b : Fin 8) :
    extractStridedSlice S8x1x1 ![0, 0, 0] A slices_S8x8x128_S8x1x1_0_0_0 (ix3 b (0 : Fin 1) (0 : Fin 1))
      = A (ix3 b (0 : Fin 8) (0 : Fin 128)) :=
  extractStridedSlice_apply _ A _ _ _ fun a => by
    match a with
    | ⟨0, _⟩ => show b.val = 0 + b.val; omega
    | ⟨1, _⟩ => rfl
    | ⟨2, _⟩ => rfl

/-- The 8 × 1 × 1 array reshaped to 8 entries, at b, is the array at (b, 0, 0). -/
theorem reshape_at (v : (⟨S8x1x1, .f32⟩ : BufTy).Contents (Elt Ideal)) (b : Fin 8) :
    shapeCast S8 v shapeCasts_S8x1x1_S8 (ix1 b) = v (ix3 b (0 : Fin 1) (0 : Fin 1)) :=
  shapeCast_apply v _ _ _ (by
    rw [Shape.rowMajor_val_three, Shape.rowMajor_val_one]
    show (b.val * 1 + 0) * 1 + 0 = b.val
    omega)

/-- The sum of eight entries from zero, at the scalar's one index. -/
theorem sum_at (y : (⟨S8, .f32⟩ : BufTy).Contents (Elt Ideal)) (i : S_.Idx) :
    Host.reduceAdd (F := Ideal) y (constant S_ .f32 0x00000000#32) reducesTo_S8_S_d0 h_S_ i = zero + ∑ b : Fin 8, y (ix1 b) := by
  simp only [Host.reduceAdd, Ideal.hostReduceAdd_def]
  refine (Ideal.hostReduceAdd_total reducesTo_S8_S_d0 (fun b => b.elim0) y _ i).trans ?_
  rw [← Equiv.sum_comp (idxEquiv1 (n := 8)).symm]
  rfl

/-- The six host lines over an array A: the mean over the batches of A's entries (b, 0, 0). -/
theorem tail_read (A : (⟨S8x8x128, .f32⟩ : BufTy).Contents (Elt Ideal)) (i : S_.Idx) :
    Host.divf (F := Ideal)
        (Host.reduceAdd (F := Ideal)
          (shapeCast S8 (extractStridedSlice S8x1x1 ![0, 0, 0] A slices_S8x8x128_S8x1x1_0_0_0) shapeCasts_S8x1x1_S8)
          (constant S_ .f32 0x00000000#32) reducesTo_S8_S_d0 h_S_)
        (constant S_ .f32 0x41000000#32) i
      = Ideal.div (zero + ∑ b : Fin 8, A (ix3 b (0 : Fin 8) (0 : Fin 128))) c8 := by
  show FloatOps.hostDivf (Host.reduceAdd (F := Ideal) _ (constant S_ .f32 0x00000000#32) reducesTo_S8_S_d0 h_S_ i)
      (constant (F := Ideal) S_ .f32 0x41000000#32 i) = _
  rw [sum_at, Ideal.hostDivf_def]
  refine congrArg (fun s => Ideal.div (zero + s) c8) (Finset.sum_congr rfl fun b _ => ?_)
  exact (reshape_at _ b).trans (slice_at A b)

/-- The program's result after the host lines that follow the region, from the output array as the region leaves it:
    the mean over the batches of the array's entries (b, 0, 0). -/
theorem tail_value (c : Dev nD) (i : S_.Idx) :
    Pipeline.afterTail₀ cfgs (dats m) 0 (V0 m) [hostOps1] c main_v4 i
      = Ideal.div (zero + ∑ b : Fin 8, outArr (F := Ideal) m c (ix3 b (0 : Fin 8) (0 : Fin 128))) c8 := by
  unfold Pipeline.afterTail₀
  show StableHlo.after hostOps1 _ (Proc.devRef .tc main_v4) i = _
  after_results
  have hA : Pipeline.withArrays (cfgs 0).spec c (V0 m c) (fun w => (dats m 0 c).arrAt w (cfgs 0).N) (Proc.tc.devRef main_v0)
      = outArr (F := Ideal) m c := Pipeline.withArrays_arr spec0 launch0.win.arr_inj c _ _ 2
  rw [hA]
  exact tail_read (outArr (F := Ideal) m c) i

end Cert.KernelIdeal.Hand

end
-- ==== Proof.KI.Payload7.lean ====
/-
  The 1024 × 1024 tile of distances the body computes from its two input blocks, read at an entry: entry (r, q) is
  √ max(‖x_r‖² + ‖y_q‖² − 2 ⟨x_r, y_q⟩, 0) of row r of the first block and row q of the second — the change of format
  before the matrix product is the identity on the extended reals, the product into a zero accumulator is the sum of
  products over the 128 coordinates, and each squared norm is a lane sum.
-/
import proofs.«171129_j67413806678291_1_alg».proof.Proof.Gen.KernelIdeal.Skeleton
import proofs.«171129_j67413806678291_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen Cert.Chamfer

/-- The distance of row r of block `xb` to row q of block `yb`. -/
def tdist (xb yb : Vec Ideal S1x1024x128 .f32) (r q : Fin 1024) : EReal :=
  Ideal.sqrt (max (((∑ d : Fin 128, xb (ix3 (0 : Fin 1) r d) * xb (ix3 (0 : Fin 1) r d)) + (∑ d : Fin 128, yb (ix3 (0 : Fin 1) q d) * yb (ix3 (0 : Fin 1) q d)))
    - two * (∑ d : Fin 128, xb (ix3 (0 : Fin 1) r d) * yb (ix3 (0 : Fin 1) q d))) zero)

/-! ## The layout operations of the body, read at coordinates -/

/-- A block with its unit axis dropped reads, at (p, d), the block at (0, p, d). -/
theorem dropUnit_apply (x : Vec Ideal S1x1024x128 .f32) (p : Fin 1024) (d : Fin 128) :
    shapeCast S1024x128 x shapeCasts_S1x1024x128_S1024x128 (ix2 p d) = x (ix3 (0 : Fin 1) p d) :=
  shapeCast_1ab_ab_apply x shapeCasts_S1x1024x128_S1024x128 p d

/-- The transposed second operand reads, at (d, q), the operand at (q, d). -/
theorem transposeOperand_apply (x : FVec Ideal S1024x128 .bf16) (d : Fin 128) (q : Fin 1024) :
    transpose S128x1024 [1, 0] x transposes_S1024x128_p1_0_S128x1024 (ix2 d q) = x (ix2 q d) :=
  transpose_ix2_apply x transposes_S1024x128_p1_0_S128x1024 d q

/-- A vector of 1024 entries as a column reads, at (p, 0), the vector at p. -/
theorem column_apply (x : FVec Ideal S1024 .f32) (p : Fin 1024) (u : Fin 1) :
    shapeCast S1024x1 x shapeCasts_S1024_S1024x1 (ix2 p u) = x (ix1 p) :=
  shapeCast_apply x shapeCasts_S1024_S1024x1 _ _ (by
    have hu : u.val = 0 := by omega
    rw [Shape.rowMajor_val_one, Shape.rowMajor_val_two]
    show p.val = p.val * 1 + u.val
    rw [hu, Nat.mul_one, Nat.add_zero])

/-- The column transposed to a row reads, at (0, q), the column at (q, 0). -/
theorem row_apply (x : FVec Ideal S1024x1 .f32) (u : Fin 1) (q : Fin 1024) :
    transpose S1x1024 [1, 0] x transposes_S1024x1_p1_0_S1x1024 (ix2 u q) = x (ix2 q u) :=
  transpose_ix2_apply x transposes_S1024x1_p1_0_S1x1024 u q

/-- A column broadcast over the columns reads, at (p, q), the column at (p, 0). -/
theorem bcastColumn_apply (x : FVec Ideal S1024x1 .f32) (p q : Fin 1024) :
    broadcastTo S1024x1024 x broadcasts_S1024x1_S1024x1024 (ix2 p q) = x (ix2 p (0 : Fin 1)) := by
  refine broadcastTo_apply x broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ => rfl

/-- A row broadcast over the rows reads, at (p, q), the row at (0, q). -/
theorem bcastRow_apply (x : FVec Ideal S1x1024 .f32) (p q : Fin 1024) :
    broadcastTo S1024x1024 x broadcasts_S1x1024_S1024x1024 (ix2 p q) = x (ix2 (0 : Fin 1) q) :=
  broadcastTo_1b_ab_apply x broadcasts_S1x1024_S1024x1024 p q

/-- A lane sum of a 1024 × 128 array reads, at p, the sum of row p. -/
theorem laneSum_apply (x : FVec Ideal S1024x128 .f32) (p : Fin 1024) :
    multiReduction (F := Ideal) .add [1] S1024 x 0x00000000#32 reduces_S1024x128_S1024 (.inl rfl) rfl (ix1 p)
      = ∑ d : Fin 128, x (ix2 p d) := by
  refine (Ideal.multiReduction_add_single x _ reduces_S1024x128_S1024 (.inl rfl) rfl (ix1 p)).trans ?_
  refine Finset.sum_congr rfl fun d _ => ?_
  exact congrArg x (funext fun a => Fin.ext (by match a with | ⟨0, _⟩ => rfl | ⟨1, _⟩ => rfl))

/-! ## The matrix product into the zero accumulator, read at an entry -/

theorem lhsAxis0 (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhsAxis1 (i : S1024x1024.Idx) (k : dot_S1024x128_S128x1024_S1024x1024_1_0_0_1_n_n.contr.Idx) :
    (dot_S1024x128_S128x1024_S1024x1024_1_0_0_1_n_n.lhsIdx i k 1).val = (k ⟨0, by decide⟩).val :=
  dot_S1024x128_S128x1024_S1024x1024_1_0_0_1_n_n.lhsIdx_val_of_single rfl i k
theorem rhsAxis0 (i : S1024x1024.Idx) (k : dot_S1024x128_S128x1024_S1024x1024_1_0_0_1_n_n.contr.Idx) :
    (dot_S1024x128_S128x1024_S1024x1024_1_0_0_1_n_n.rhsIdx i k 0).val = (k ⟨0, by decide⟩).val :=
  dot_S1024x128_S128x1024_S1024x1024_1_0_0_1_n_n.rhsIdx_val_of_single rfl i k
theorem rhsAxis1 (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 × 128 and a 128 × 1024 matrix into the zero accumulator reads, at (r, q), the sum over the
    128 contraction coordinates of the products of row r of the first with column q of the second. -/
theorem product_apply (a : FVec Ideal S1024x128 .bf16) (b : FVec Ideal S128x1024 .bf16) (r q : Fin 1024) :
    matmul (F := Ideal) dot_S1024x128_S128x1024_S1024x1024_1_0_0_1_n_n none a b (constant (F := Ideal) S1024x1024 .f32 0x00000000#32) (ix2 r q)
      = ∑ d : Fin 128, a (ix2 r d) * b (ix2 d q) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun d _ => ?_
  have hd := ValueIdx.contrEquiv1_symm_val dot_S1024x128_S128x1024_S1024x1024_1_0_0_1_n_n 128 rfl rfl d
  have el : dot_S1024x128_S128x1024_S1024x1024_1_0_0_1_n_n.lhsIdx (ix2 r q) ((ValueIdx.contrEquiv1 dot_S1024x128_S128x1024_S1024x1024_1_0_0_1_n_n 128 rfl rfl).symm d) = ix2 r d := funext fun ax => Fin.ext (by
    match ax with
    | ⟨0, _⟩ => exact lhsAxis0 _ _
    | ⟨1, _⟩ => exact (lhsAxis1 _ _).trans hd)
  have er : dot_S1024x128_S128x1024_S1024x1024_1_0_0_1_n_n.rhsIdx (ix2 r q) ((ValueIdx.contrEquiv1 dot_S1024x128_S128x1024_S1024x1024_1_0_0_1_n_n 128 rfl rfl).symm d) = ix2 d q := funext fun ax => Fin.ext (by
    match ax with
    | ⟨0, _⟩ => exact (rhsAxis0 _ _).trans hd
    | ⟨1, _⟩ => exact rhsAxis1 _ _)
  rw [el, er]

theorem pay7_apply (xb yb : Vec Ideal S1x1024x128 .f32) (r q : Fin 1024) :
    k0_pay7 (F := Ideal) xb yb (ix2 r q) = tdist xb yb r q := by
  have hx : ∀ d : Fin 128, shapeCast S1024x128 xb shapeCasts_S1x1024x128_S1024x128 (ix2 r d) = xb (ix3 (0 : Fin 1) r d) :=
    fun d => dropUnit_apply xb r d
  have hy : ∀ d : Fin 128, shapeCast S1024x128 yb shapeCasts_S1x1024x128_S1024x128 (ix2 q d) = yb (ix3 (0 : Fin 1) q d) :=
    fun d => dropUnit_apply yb q d
  have ht : ∀ d : Fin 128, transpose S128x1024 [1, 0]
      (truncf (F := Ideal) .bf16 (shapeCast S1024x128 yb shapeCasts_S1x1024x128_S1024x128) bitsLt_bf16_f32)
      transposes_S1024x128_p1_0_S128x1024 (ix2 d q) = yb (ix3 (0 : Fin 1) q d) :=
    fun d => (transposeOperand_apply _ d q).trans (hy d)
  unfold k0_pay7 tdist
  show Ideal.sqrt (max ((_ + _) - Ideal.ofBits .f32 0x40000000#32 * _) (Ideal.ofBits .f32 0x00000000#32)) = _
  rw [product_apply, bcastColumn_apply, column_apply, laneSum_apply, bcastRow_apply, row_apply, column_apply, laneSum_apply]
  refine congrArg Ideal.sqrt (congrArg (max · zero) ?_)
  refine congrArg₂ (fun s p => s - two * p)
    (congrArg₂ (· + ·) (Finset.sum_congr rfl fun d _ => ?_) (Finset.sum_congr rfl fun d _ => ?_))
    (Finset.sum_congr rfl fun d _ => ?_)
  · show shapeCast S1024x128 xb shapeCasts_S1x1024x128_S1024x128 (ix2 r d) * shapeCast S1024x128 xb shapeCasts_S1x1024x128_S1024x128 (ix2 r d) = _
    rw [hx d]
  · show shapeCast S1024x128 yb shapeCasts_S1x1024x128_S1024x128 (ix2 q d) * shapeCast S1024x128 yb shapeCasts_S1x1024x128_S1024x128 (ix2 q d) = _
    rw [hy d]
  · show shapeCast S1024x128 xb shapeCasts_S1x1024x128_S1024x128 (ix2 r d) * _ = _
    rw [hx d, ht d]

end Cert.KernelIdeal.Hand

end
-- ==== Proof.KI.Blocks.lean ====
/-
  What the two input blocks of a grid point are, as parts of the argument arrays: at point (b, i, j) the first
  block's row r is point 1024 i + r of batch b of the first array, the second block's row q is point 1024 j + q of
  batch b of the second; so the distance tile the body computes there is the tile (i, j) of the batch's distances.
-/
import proofs.«171129_j67413806678291_1_alg».proof.Proof.KI.Model
import proofs.«171129_j67413806678291_1_alg».proof.Proof.KI.Payload7
import proofs.«171129_j67413806678291_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer

variable (m : (ℓ : Loc nD τ sig) → Buf (Elt Ideal) ℓ) (c : Dev nD)

/-- The two argument arrays as functions of (batch, point, coordinate). -/
abbrev XA : Fin 8 → Fin 4096 → Fin 128 → EReal := arr3 (m ((c : Thread nD τ).loc main_arg0))
abbrev YA : Fin 8 → Fin 4096 → Fin 128 → EReal := arr3 (m ((c : Thread nD τ).loc main_arg1))

/-- The batch, row tile and column tile of point `t`. -/
def bOf (t : Fin cfg0.N) : Fin 8 := ⟨t.val / 16, by have := lt_of_lt_of_eq t.isLt (show cfg0.N = 128 from N_0); omega⟩
def iOf (t : Fin cfg0.N) : Fin 4 := ⟨t.val / 4 % 4, Nat.mod_lt _ (by norm_num)⟩
def jOf (t : Fin cfg0.N) : Fin 4 := ⟨t.val % 4, Nat.mod_lt _ (by norm_num)⟩

theorem idxX : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, win0_0.index t (0 : Fin 3) = t.val / 16 ∧ win0_0.index t (1 : Fin 3) = t.val / 4 % 4
    ∧ win0_0.index t (2 : Fin 3) = 0)
theorem idxY : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, win0_1.index t (0 : Fin 3) = t.val / 16 ∧ win0_1.index t (1 : Fin 3) = t.val % 4
    ∧ win0_1.index t (2 : Fin 3) = 0)

theorem xblk_apply (t : Fin cfg0.N) (r : Fin 1024) (d : Fin 128) :
    xblk (F := Ideal) m c t (ix3 (0 : Fin 1) r d) = XA m c (bOf t) (tix (iOf t) r) d := by
  obtain ⟨e0, e1, e2⟩ := idxX t
  show iblk m c 0 t (ix3 (0 : Fin 1) r d) = arr3 (m ((c : Thread nD τ).loc main_arg0)) (bOf t) (tix (iOf t) r) d
  unfold iblk arr3
  rw [View.read_apply]
  show V m c main_arg0 _ = m (c.tc.loc main_arg0) _
  unfold V
  congr 1
  funext a
  apply Fin.ext
  match a with
  | ⟨0, _⟩ => show win0_0.index t 0 * 1 + 1 * (0 : Fin 1).val = t.val / 16; rw [e0]; simp
  | ⟨1, _⟩ => show win0_0.index t 1 * 1024 + 1 * r.val = 1024 * (t.val / 4 % 4) + r.val; rw [e1]; omega
  | ⟨2, _⟩ => show win0_0.index t 2 * 128 + 1 * d.val = d.val; rw [e2]; omega

theorem yblk_apply (t : Fin cfg0.N) (q : Fin 1024) (d : Fin 128) :
    yblk (F := Ideal) m c t (ix3 (0 : Fin 1) q d) = YA m c (bOf t) (tix (jOf t) q) d := by
  obtain ⟨e0, e1, e2⟩ := idxY t
  show iblk m c 1 t (ix3 (0 : Fin 1) q d) = arr3 (m ((c : Thread nD τ).loc main_arg1)) (bOf t) (tix (jOf t) q) d
  unfold iblk arr3
  rw [View.read_apply]
  show V m c main_arg1 _ = m (c.tc.loc main_arg1) _
  unfold V
  congr 1
  funext a
  apply Fin.ext
  match a with
  | ⟨0, _⟩ => show win0_1.index t 0 * 1 + 1 * (0 : Fin 1).val = t.val / 16; rw [e0]; simp
  | ⟨1, _⟩ => show win0_1.index t 1 * 1024 + 1 * q.val = 1024 * (t.val % 4) + q.val; rw [e1]; omega
  | ⟨2, _⟩ => show win0_1.index t 2 * 128 + 1 * d.val = d.val; rw [e2]; omega

/-- The tile the body computes at point `t` is tile (i, j) of batch b's distances. -/
theorem tdist_blk (t : Fin cfg0.N) (r q : Fin 1024) :
    tdist (xblk (F := Ideal) m c t) (yblk (F := Ideal) m c t) r q = dist (XA m c) (YA m c) (bOf t) (tix (iOf t) r) (tix (jOf t) q) := by
  unfold tdist Cert.Chamfer.dist
  simp only [xblk_apply, yblk_apply]

end Cert.KernelIdeal.Hand

end
-- ==== Proof.KI.PayloadRest.lean ====
/-
  The body's other payloads read at an entry, on the extended reals: the row and column minima of the distance tile
  are folds of `min` from +∞ over the tile's columns and rows; the stores of a minimum into a scratch buffer keep the
  entrywise minimum of what was there and the new value; and the two updates of the output block add, at entry (0, 0),
  the sum of a scratch column (row) times 2⁻¹².
-/
import proofs.«171129_j67413806678291_1_alg».proof.Proof.Gen.KernelIdeal.Skeleton
import proofs.«171129_j67413806678291_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.KernelIdeal.Hand

open Idealize.ShloMosaic Idealize.ShloMosaic.ValueIdx Cert.KernelIdeal Cert.KernelIdeal.Gen Cert.Chamfer

/-! ## Reading the reshapes and reductions at explicit coordinates -/

/-- A vector of n entries cast to one column, read at (r, 0), is entry r. -/
private theorem shapeCast_oneCol_apply {α : Type} {n : Nat} (hsc : (⟨1, ![n]⟩ : Shape).ShapeCasts (⟨2, ![n, 1]⟩ : Shape))
    (z : (⟨1, ![n]⟩ : Shape).Idx → α) (r : Fin n) :
    shapeCast (⟨2, ![n, 1]⟩ : Shape) z hsc (ix2 r (0 : Fin 1)) = z (ix1 r) := by
  refine shapeCast_apply z hsc _ _ ?_
  rw [Shape.rowMajor_val_one, Shape.rowMajor_val_two]
  show r.val = r.val * 1 + 0
  omega

/-- A vector of n entries cast to one row, read at (0, q), is entry q. -/
private theorem shapeCast_oneRow_apply {α : Type} {n : Nat} (hsc : (⟨1, ![n]⟩ : Shape).ShapeCasts (⟨2, ![1, n]⟩ : Shape))
    (z : (⟨1, ![n]⟩ : Shape).Idx → α) (q : Fin n) :
    shapeCast (⟨2, ![1, n]⟩ : Shape) z hsc (ix2 (0 : Fin 1) q) = z (ix1 q) := by
  refine shapeCast_apply z hsc _ _ ?_
  rw [Shape.rowMajor_val_one, Shape.rowMajor_val_two]
  show q.val = 0 * n + q.val
  omega

/-- A minimum reduction over one axis, on the extended reals: the fold of `min` from the accumulator's value over
    that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The reduced index r with column k put back is (r, k). -/
private theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The reduced index q with row k put back is (k, q). -/
private theorem lift_col {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- Row minima of the tile: entry (r, 0) is the minimum over the tile's columns, from +∞. -/
theorem pay8_apply (xb yb : Vec Ideal S1x1024x128 .f32) (r : Fin 1024) :
    k0_pay8 (F := Ideal) xb yb (ix2 r (0 : Fin 1)) = (Finset.univ : Finset (Fin 1024)).fold min pinf (fun q => k0_pay7 (F := Ideal) xb yb (ix2 r q)) := by
  unfold k0_pay8
  refine (shapeCast_oneCol_apply _ _ r).trans ?_
  refine (multiReduction_minimumf_single _ _ _ _ _ _).trans ?_
  have hf : (k0_pay7 (F := Ideal) xb yb ∘ reduces_S1024x1024_S1024.lift (ix1 r)) = fun q : Fin 1024 => k0_pay7 (F := Ideal) xb yb (ix2 r q) :=
    funext fun k => congrArg (k0_pay7 (F := Ideal) xb yb) (lift_row reduces_S1024x1024_S1024 r k)
  exact congrArg (fun f => Finset.fold min pinf f (Finset.univ : Finset (Fin 1024))) hf

/-- Column minima of the tile: entry (0, q) is the minimum over the tile's rows, from +∞. -/
theorem pay9_apply (xb yb : Vec Ideal S1x1024x128 .f32) (q : Fin 1024) :
    k0_pay9 (F := Ideal) xb yb (ix2 (0 : Fin 1) q) = (Finset.univ : Finset (Fin 1024)).fold min pinf (fun r => k0_pay7 (F := Ideal) xb yb (ix2 r q)) := by
  unfold k0_pay9
  refine (shapeCast_oneRow_apply _ _ q).trans ?_
  refine (multiReduction_minimumf_single _ _ _ _ _ _).trans ?_
  have hf : (k0_pay7 (F := Ideal) xb yb ∘ reduces_S1024x1024_S1024_2.lift (ix1 q)) = fun r : Fin 1024 => k0_pay7 (F := Ideal) xb yb (ix2 r q) :=
    funext fun k => congrArg (k0_pay7 (F := Ideal) xb yb) (lift_col reduces_S1024x1024_S1024_2 q k)
  exact congrArg (fun f => Finset.fold min pinf f (Finset.univ : Finset (Fin 1024))) hf

/-- The reshapes to the same shape are the identity. -/
theorem pay10_eq (xb yb : Vec Ideal S1x1024x128 .f32) : k0_pay10 (F := Ideal) xb yb = k0_pay8 (F := Ideal) xb yb := by
  unfold k0_pay10
  exact shapeCast_self _ _
theorem pay3_eq (v32 : FVec Ideal S1x1024 .f32) : k0_pay3 (F := Ideal) v32 = v32 := by
  unfold k0_pay3
  exact shapeCast_self _ _

/-- The running minima: what was there, or the new value, whichever is smaller. -/
theorem pay1_apply (v30 : FVec Ideal S1024x1 .f32) (v53 : Vec Ideal S1024x1 .f32) (j : S1024x1.Idx) :
    k0_pay1 (F := Ideal) v30 v53 j = min (v53 j) (v30 j) := by
  unfold k0_pay1
  exact (congrFun (shapeCast_self _ _) j).trans (minimumf_apply v53 v30 j)
theorem pay4_apply (v32 : FVec Ideal S1x1024 .f32) (v54 : Vec Ideal S1x1024 .f32) (j : S1x1024.Idx) :
    k0_pay4 (F := Ideal) v32 v54 j = min (v54 j) (v32 j) := by
  unfold k0_pay4
  exact (congrFun (shapeCast_self _ _) j).trans (minimumf_apply v54 v32 j)

/-- The zeroed output block. -/
theorem pay6_apply (j : S1x8x128.Idx) : k0_pay6 (F := Ideal) j = zero := by
  unfold k0_pay6
  rfl

/-! ## The two updates of the output block at entry (0, 0, 0) -/

/-- The block viewed as 8 × 128, read at (0, 0), is the block at (0, 0, 0). -/
private theorem shapeCast_block_apply00 {α : Type} (x : S1x8x128.Idx → α) :
    shapeCast S8x128 x shapeCasts_S1x8x128_S8x128 (ix2 (0 : Fin 8) (0 : Fin 128)) = x (ix3 (0 : Fin 1) (0 : Fin 8) (0 : Fin 128)) := by
  refine shapeCast_apply x _ _ _ ?_
  rw [Shape.rowMajor_val_three, Shape.rowMajor_val_two]
  rfl

/-- The 8 × 128 value stored as a block, read at (0, 0, 0), is the value at (0, 0). -/
private theorem shapeCast_unblock_apply00 {α : Type} (x : S8x128.Idx → α) :
    shapeCast S1x8x128 x shapeCasts_S8x128_S1x8x128 (ix3 (0 : Fin 1) (0 : Fin 8) (0 : Fin 128)) = x (ix2 (0 : Fin 8) (0 : Fin 128)) := by
  refine shapeCast_apply x _ _ _ ?_
  rw [Shape.rowMajor_val_three, Shape.rowMajor_val_two]
  rfl

/-- The mask "row 0 and column 0" holds at (0, 0). -/
private theorem mask00 :
    andi (cmpi .eq (iota .tc S8x128 32 [0] iota_S8x128_d0_w32) (broadcast S8x128 0#32))
      (cmpi .eq (iota .tc S8x128 32 [1] iota_S8x128_d1_w32) (broadcast S8x128 0#32)) (ix2 (0 : Fin 8) (0 : Fin 128)) = 1#1 := by
  rfl

/-- The 1 × 1 value broadcast to 8 × 128, read at (0, 0), is its one entry. -/
private theorem broadcastTo_one_apply00 {α : Type} (c : S1x1.Idx → α) :
    broadcastTo S8x128 c broadcasts_S1x1_S8x128 (ix2 (0 : Fin 8) (0 : Fin 128)) = c (ix2 (0 : Fin 1) (0 : Fin 1)) := by
  refine broadcastTo_apply c _ _ _ ?_
  intro a
  fin_cases a <;> rfl

/-- Adding, under the mask "row 0 and column 0", the broadcast of a 1 × 1 value: at (0, 0) the sum of the two entries. -/
private theorem maskedAdd00 (a : FVec Ideal S8x128 .f32) (c : FVec Ideal S1x1 .f32) (z : Ideal .f32) :
    addf a (select (andi (cmpi .eq (iota .tc S8x128 32 [0] iota_S8x128_d0_w32) (broadcast S8x128 0#32))
        (cmpi .eq (iota .tc S8x128 32 [1] iota_S8x128_d1_w32) (broadcast S8x128 0#32)))
      (broadcastTo S8x128 c broadcasts_S1x1_S8x128) (broadcast S8x128 z)) (ix2 (0 : Fin 8) (0 : Fin 128))
      = a (ix2 (0 : Fin 8) (0 : Fin 128)) + c (ix2 (0 : Fin 1) (0 : Fin 1)) := by
  refine (addf_apply _ _ _).trans ?_
  refine congrArg (fun y => a (ix2 (0 : Fin 8) (0 : Fin 128)) + y) ?_
  refine (select_apply _ _ _ _).trans ?_
  rw [mask00, select_one]
  exact broadcastTo_one_apply00 c

/-- A one-entry vector as 1 × 1, scaled by 2⁻¹² and reshaped to itself: its entry times 2⁻¹². -/
private theorem scaled00 (w : FVec Ideal S1 .f32) :
    shapeCast S1x1 (mulf (shapeCast S1x1 w shapeCasts_S1_S1x1) (broadcast S1x1 (Scalar.ofBits (F := Ideal) .f32 0x39800000#32)))
      shapeCasts_S1x1_S1x1 (ix2 (0 : Fin 1) (0 : Fin 1)) = w (ix1 (0 : Fin 1)) * k12 := by
  rw [shapeCast_self]
  refine (mulf_apply _ _ _).trans ?_
  rw [shapeCast_oneCol_apply]
  rfl

/-- The output block's entry (0, 0, 0) after a row tile's last point: what was there plus the column sum of the
    row-minimum scratch times 2⁻¹². -/
theorem pay2_apply00 (v53 : Vec Ideal S1024x1 .f32) (v58 : Vec Ideal S1x8x128 .f32) :
    k0_pay2 (F := Ideal) v53 v58 (ix3 (0 : Fin 1) (0 : Fin 8) (0 : Fin 128))
      = v58 (ix3 (0 : Fin 1) (0 : Fin 8) (0 : Fin 128)) + (∑ r : Fin 1024, v53 (ix2 r (0 : Fin 1))) * k12 := by
  unfold k0_pay2
  refine (shapeCast_unblock_apply00 _).trans ?_
  refine (maskedAdd00 _ _ _).trans ?_
  rw [shapeCast_block_apply00, scaled00]
  refine congrArg (fun y => v58 (ix3 (0 : Fin 1) (0 : Fin 8) (0 : Fin 128)) + y * k12) ?_
  refine (Ideal.multiReduction_add_single _ _ _ _ _ _).trans ?_
  exact Finset.sum_congr rfl fun k _ => congrArg v53 (lift_col reduces_S1024x1_S1 (0 : Fin 1) k)

/-- The same after a column tile's last point: plus the row sum of the slice of the column-minimum scratch times 2⁻¹². -/
theorem pay5_apply00 (v54 : Vec Ideal S1x1024 .f32) (v59 : Vec Ideal S1x8x128 .f32) :
    k0_pay5 (F := Ideal) v54 v59 (ix3 (0 : Fin 1) (0 : Fin 8) (0 : Fin 128))
      = v59 (ix3 (0 : Fin 1) (0 : Fin 8) (0 : Fin 128)) + (∑ q : Fin 1024, v54 (ix2 (0 : Fin 1) q)) * k12 := by
  unfold k0_pay5
  refine (shapeCast_unblock_apply00 _).trans ?_
  refine (maskedAdd00 _ _ _).trans ?_
  rw [shapeCast_block_apply00, scaled00]
  refine congrArg (fun y => v59 (ix3 (0 : Fin 1) (0 : Fin 8) (0 : Fin 128)) + y * k12) ?_
  refine (Ideal.multiReduction_add_single _ _ _ _ _ _).trans ?_
  exact Finset.sum_congr rfl fun k _ => congrArg v54 (lift_row reduces_S1x1024_S1 (0 : Fin 1) k)

end Cert.KernelIdeal.Hand

end
-- ==== Proof.KI.Invariants.lean ====
/-
  The carried buffers after the sixteen points of a batch, on the extended reals: the row-minimum scratch after the
  j-th tile of a row sweep holds the minima over the first j + 1 tiles; slice jj of the column-minimum scratch holds
  the minima over the row tiles that have visited it; and the output block's entry (0, 0, 0) after the batch's last
  point is the batch's accumulated sum `kerBatch`.
-/
import proofs.«171129_j67413806678291_1_alg».proof.Proof.KI.Blocks
import proofs.«171129_j67413806678291_1_alg».proof.Proof.KI.PayloadRest
import proofs.«171129_j67413806678291_1_alg».proof.Proof.LibOverlay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer

variable (m : (ℓ : Loc nD τ sig) → Buf (Elt Ideal) ℓ) (c : Dev nD)

/-- The batch's distances between the two argument arrays' points. -/
abbrev DD : Fin 8 → Fin 4096 → Fin 4096 → EReal := Cert.Chamfer.dist (XA m c) (YA m c)

/-- The carried buffers after point `t`. -/
abbrev SA (t : Fin cfg0.N) : St Ideal := stAt (F := Ideal) m c t.val t.isLt

local notation "𝟬" => ix3 (0 : Fin 1) (0 : Fin 8) (0 : Fin 128)

/-! ## The tile's row and column minima at a point -/

theorem rowT (t : Fin cfg0.N) (r : Fin 1024) :
    k0_pay8 (F := Ideal) (xblk (F := Ideal) m c t) (yblk (F := Ideal) m c t) (ix2 r (0 : Fin 1))
      = tRow (DD m c) (bOf t) (iOf t) (jOf t) r := by
  rw [pay8_apply]
  unfold tRow
  refine congrArg (fun f => Finset.fold min pinf f (Finset.univ : Finset (Fin 1024))) (funext fun q => ?_)
  rw [pay7_apply, tdist_blk]

theorem colT (t : Fin cfg0.N) (q : Fin 1024) :
    k0_pay9 (F := Ideal) (xblk (F := Ideal) m c t) (yblk (F := Ideal) m c t) (ix2 (0 : Fin 1) q)
      = tCol (DD m c) (bOf t) (iOf t) (jOf t) q := by
  rw [pay9_apply]
  unfold tCol
  refine congrArg (fun f => Finset.fold min pinf f (Finset.univ : Finset (Fin 1024))) (funext fun r => ?_)
  rw [pay7_apply, tdist_blk]

/-! ## The row-minimum scratch after a point -/

theorem stepS0_first (t : Fin cfg0.N) (h : t.val % 4 = 0) (s0 : Vec Ideal S1024x1 .f32) (r : Fin 1024) :
    stepS0 (F := Ideal) (grid0.coords t) (xblk (F := Ideal) m c t) (yblk (F := Ideal) m c t) s0 (ix2 r (0 : Fin 1))
      = tRow (DD m c) (bOf t) (iOf t) (jOf t) r := by
  unfold stepS0
  simp only [if_pos ((hcJ0 t).mpr h), if_neg (fun hh => (hcJpos t).mp hh h)]
  rw [pay10_eq]
  exact rowT m c t r

theorem stepS0_pos (t : Fin cfg0.N) (h : t.val % 4 ≠ 0) (s0 : Vec Ideal S1024x1 .f32) (r : Fin 1024) :
    stepS0 (F := Ideal) (grid0.coords t) (xblk (F := Ideal) m c t) (yblk (F := Ideal) m c t) s0 (ix2 r (0 : Fin 1))
      = min (s0 (ix2 r (0 : Fin 1))) (tRow (DD m c) (bOf t) (iOf t) (jOf t) r) := by
  unfold stepS0
  simp only [if_neg (fun hh => h ((hcJ0 t).mp hh)), if_pos ((hcJpos t).mpr h)]
  rw [pay1_apply, rowT]

/-! ## The slice of columns 1024 j … 1024 j + 1023 of the column-minimum scratch -/

theorem slice_emb (off : Fin S1x4096.rank → ℕ) (inb : ∀ a, off a + S1x1024.size a ≤ S1x4096.size a) (j : Fin 4)
    (hoff : off = ![0, 1024 * j.val]) (q : Fin 1024) :
    (Rect.unit (s := S1x4096) off S1x1024.size inb).emb (ix2 (0 : Fin 1) q) = ix2 (0 : Fin 1) (tix j q) := by
  subst hoff
  funext a
  apply Fin.ext
  match a with
  | ⟨0, _⟩ => rfl
  | ⟨1, _⟩ => show 1024 * j.val + 1 * q.val = 1024 * j.val + q.val; omega

theorem overlay_same (off : Fin S1x4096.rank → ℕ) (inb : ∀ a, off a + S1x1024.size a ≤ S1x4096.size a) (j : Fin 4)
    (hoff : off = ![0, 1024 * j.val]) (X : S1x4096.Idx → EReal)
    (w : (Rect.unit (s := S1x4096) off S1x1024.size inb).shape.Idx → EReal) (q : Fin 1024) :
    (Rect.unit (s := S1x4096) off S1x1024.size inb).overlay X w (ix2 (0 : Fin 1) (tix j q)) = w (ix2 (0 : Fin 1) q) := by
  rw [← slice_emb off inb j hoff q]
  exact Rect.overlay_emb _ X w _

theorem overlay_other (off : Fin S1x4096.rank → ℕ) (inb : ∀ a, off a + S1x1024.size a ≤ S1x4096.size a) (j jj : Fin 4)
    (hoff : off = ![0, 1024 * j.val]) (hne : jj ≠ j) (X : S1x4096.Idx → EReal)
    (w : (Rect.unit (s := S1x4096) off S1x1024.size inb).shape.Idx → EReal) (q : Fin 1024) :
    (Rect.unit (s := S1x4096) off S1x1024.size inb).overlay X w (ix2 (0 : Fin 1) (tix jj q)) = X (ix2 (0 : Fin 1) (tix jj q)) := by
  subst hoff
  refine Rect.overlay_of_not_mem _ X w ?_
  rw [Rect.mem_set_unit]
  intro hmem
  have h1 : 1024 * j.val ≤ 1024 * jj.val + q.val ∧ 1024 * jj.val + q.val < 1024 * j.val + 1024 := hmem (1 : Fin 2)
  have hq := q.isLt
  have hne' : jj.val ≠ j.val := fun h => hne (Fin.ext h)
  omega

theorem ld_slice (off : Fin S1x4096.rank → ℕ) (inb : ∀ a, off a + S1x1024.size a ≤ S1x4096.size a) (j : Fin 4)
    (hoff : off = ![0, 1024 * j.val]) (X : Vec Ideal S1x4096 .f32) (q : Fin 1024) :
    View.ld (Val := Elt Ideal) (e' := .f32) X (Rect.unit (s := S1x4096) off S1x1024.size inb) (ix2 (0 : Fin 1) q) = X (ix2 (0 : Fin 1) (tix j q)) := by
  show X ((Rect.unit (s := S1x4096) off S1x1024.size inb).emb (ix2 (0 : Fin 1) q)) = _
  rw [slice_emb off inb j hoff q]

theorem off1_j (t : Fin cfg0.N) : k0_off1 (grid0.coords t) = ![0, 1024 * (jOf t).val] := by
  rw [k0_off1_eq, coord_j]; rfl
theorem off2_j (t : Fin cfg0.N) : k0_off2 (grid0.coords t) = ![0, 1024 * (jOf t).val] := by
  rw [k0_off2_eq, coord_j]; rfl
theorem off3_j (t : Fin cfg0.N) : k0_off3 (grid0.coords t) = ![0, 1024 * (jOf t).val] := by
  rw [k0_off3_eq, coord_j]; rfl

/-! ## The column-minimum scratch after a point -/

theorem stepS1_first (t : Fin cfg0.N) (h : t.val / 4 % 4 = 0) (s1 : Vec Ideal S1x4096 .f32) (q : Fin 1024) :
    stepS1 (F := Ideal) (grid0.coords t) (xblk (F := Ideal) m c t) (yblk (F := Ideal) m c t) s1 (ix2 (0 : Fin 1) (tix (jOf t) q))
      = tCol (DD m c) (bOf t) (iOf t) (jOf t) q := by
  unfold stepS1
  simp only [dif_pos ((hc5 t).mpr h), dif_neg (fun hh => (hc6 t).mp hh h)]
  refine (overlay_same _ _ (jOf t) (off1_j t) _ _ q).trans ?_
  rw [pay3_eq]
  exact colT m c t q

theorem stepS1_pos (t : Fin cfg0.N) (h : t.val / 4 % 4 ≠ 0) (s1 : Vec Ideal S1x4096 .f32) (q : Fin 1024) :
    stepS1 (F := Ideal) (grid0.coords t) (xblk (F := Ideal) m c t) (yblk (F := Ideal) m c t) s1 (ix2 (0 : Fin 1) (tix (jOf t) q))
      = min (s1 (ix2 (0 : Fin 1) (tix (jOf t) q))) (tCol (DD m c) (bOf t) (iOf t) (jOf t) q) := by
  unfold stepS1
  simp only [dif_neg (fun hh => h ((hc5 t).mp hh)), dif_pos ((hc6 t).mpr h)]
  refine (overlay_same _ _ (jOf t) (off2_j t) _ _ q).trans ?_
  rw [pay4_apply, ld_slice _ _ (jOf t) (off2_j t), colT]

theorem stepS1_other (t : Fin cfg0.N) (jj : Fin 4) (hne : jj ≠ jOf t) (s1 : Vec Ideal S1x4096 .f32) (q : Fin 1024) :
    stepS1 (F := Ideal) (grid0.coords t) (xblk (F := Ideal) m c t) (yblk (F := Ideal) m c t) s1 (ix2 (0 : Fin 1) (tix jj q))
      = s1 (ix2 (0 : Fin 1) (tix jj q)) := by
  unfold stepS1
  by_cases h : t.val / 4 % 4 = 0
  · simp only [dif_pos ((hc5 t).mpr h), dif_neg (fun hh => (hc6 t).mp hh h)]
    exact overlay_other _ _ (jOf t) jj (off1_j t) hne _ _ q
  · simp only [dif_neg (fun hh => h ((hc5 t).mp hh)), dif_pos ((hc6 t).mpr h)]
    exact overlay_other _ _ (jOf t) jj (off2_j t) hne _ _ q

/-! ## The output block's entry (0, 0, 0) after a point -/

theorem stepO_zero (t : Fin cfg0.N) (h : t.val % 16 = 0) (s0b : Vec Ideal S1024x1 .f32) (s1b : Vec Ideal S1x4096 .f32)
    (o : Vec Ideal S1x8x128 .f32) : stepO (F := Ideal) (grid0.coords t) s0b s1b o 𝟬 = zero := by
  unfold stepO
  simp only [if_pos ((hc1 t).mpr h), if_neg (fun hh => by have := (hc4 t).mp hh; omega),
    dif_neg (fun hh => by have := (hc7 t).mp hh; omega)]
  exact pay6_apply _

theorem stepO_keep (t : Fin cfg0.N) (h1 : t.val % 16 ≠ 0) (h4 : t.val % 4 ≠ 3) (h7 : t.val / 4 % 4 ≠ 3)
    (s0b : Vec Ideal S1024x1 .f32) (s1b : Vec Ideal S1x4096 .f32) (o : Vec Ideal S1x8x128 .f32) :
    stepO (F := Ideal) (grid0.coords t) s0b s1b o 𝟬 = o 𝟬 := by
  unfold stepO
  simp only [if_neg (fun hh => h1 ((hc1 t).mp hh)), if_neg (fun hh => h4 ((hc4 t).mp hh)),
    dif_neg (fun hh => h7 ((hc7 t).mp hh))]

theorem stepO_row (t : Fin cfg0.N) (h1 : t.val % 16 ≠ 0) (h4 : t.val % 4 = 3) (h7 : t.val / 4 % 4 ≠ 3)
    (s0b : Vec Ideal S1024x1 .f32) (s1b : Vec Ideal S1x4096 .f32) (o : Vec Ideal S1x8x128 .f32) :
    stepO (F := Ideal) (grid0.coords t) s0b s1b o 𝟬 = o 𝟬 + (∑ r : Fin 1024, s0b (ix2 r (0 : Fin 1))) * k12 := by
  unfold stepO
  simp only [if_neg (fun hh => h1 ((hc1 t).mp hh)), if_pos ((hc4 t).mpr h4),
    dif_neg (fun hh => h7 ((hc7 t).mp hh))]
  exact pay2_apply00 _ _

theorem stepO_col (t : Fin cfg0.N) (h4 : t.val % 4 ≠ 3) (h7 : t.val / 4 % 4 = 3)
    (s0b : Vec Ideal S1024x1 .f32) (s1b : Vec Ideal S1x4096 .f32) (o : Vec Ideal S1x8x128 .f32) :
    stepO (F := Ideal) (grid0.coords t) s0b s1b o 𝟬
      = o 𝟬 + (∑ q : Fin 1024, s1b (ix2 (0 : Fin 1) (tix (jOf t) q))) * k12 := by
  unfold stepO
  simp only [if_neg (fun hh => by have := (hc1 t).mp hh; omega), if_neg (fun hh => h4 ((hc4 t).mp hh)),
    dif_pos ((hc7 t).mpr h7)]
  refine (pay5_apply00 _ _).trans ?_
  refine congrArg (fun s : EReal => o 𝟬 + s * k12) (Finset.sum_congr rfl fun q _ => ?_)
  exact ld_slice _ _ (jOf t) (off3_j t) s1b q

theorem stepO_both (t : Fin cfg0.N) (h4 : t.val % 4 = 3) (h7 : t.val / 4 % 4 = 3)
    (s0b : Vec Ideal S1024x1 .f32) (s1b : Vec Ideal S1x4096 .f32) (o : Vec Ideal S1x8x128 .f32) :
    stepO (F := Ideal) (grid0.coords t) s0b s1b o 𝟬
      = (o 𝟬 + (∑ r : Fin 1024, s0b (ix2 r (0 : Fin 1))) * k12)
        + (∑ q : Fin 1024, s1b (ix2 (0 : Fin 1) (tix (jOf t) q))) * k12 := by
  unfold stepO
  simp only [if_neg (fun hh => by have := (hc1 t).mp hh; omega), if_pos ((hc4 t).mpr h4),
    dif_pos ((hc7 t).mpr h7)]
  refine (pay5_apply00 _ _).trans ?_
  rw [pay2_apply00]
  refine congrArg (fun s : EReal => (o 𝟬 + (∑ r : Fin 1024, s0b (ix2 r (0 : Fin 1))) * k12) + s * k12)
    (Finset.sum_congr rfl fun q _ => ?_)
  exact ld_slice _ _ (jOf t) (off3_j t) s1b q

/-! ## The buffers after a point from the buffers after the point before -/

theorem before_eq (t t' : Fin cfg0.N) (e : t.val = t'.val + 1) :
    stBefore (F := Ideal) m c t.val t.isLt = SA m c t' := by
  obtain ⟨n, hn⟩ := t
  obtain ⟨n', hn'⟩ := t'
  simp only at e
  subst e
  rfl

theorem st_eq (t t' : Fin cfg0.N) (e : t.val = t'.val + 1) :
    SA m c t = step (F := Ideal) (grid0.coords t) (xblk (F := Ideal) m c t) (yblk (F := Ideal) m c t) (SA m c t') := by
  have h := stAt_eq (F := Ideal) m c t
  rw [before_eq m c t t' e] at h
  exact h

theorem s0_first (t : Fin cfg0.N) (h : t.val % 4 = 0) (r : Fin 1024) :
    (SA m c t).s0 (ix2 r (0 : Fin 1)) = tRow (DD m c) (bOf t) (iOf t) (jOf t) r :=
  (congrArg (fun st : St Ideal => st.s0 (ix2 r (0 : Fin 1))) (stAt_eq (F := Ideal) m c t)).trans
    (stepS0_first m c t h _ r)

theorem s0_next (t t' : Fin cfg0.N) (e : t.val = t'.val + 1) (h : t.val % 4 ≠ 0) (r : Fin 1024) :
    (SA m c t).s0 (ix2 r (0 : Fin 1))
      = min ((SA m c t').s0 (ix2 r (0 : Fin 1))) (tRow (DD m c) (bOf t) (iOf t) (jOf t) r) := by
  rw [st_eq m c t t' e]
  exact stepS0_pos m c t h _ r

theorem s1_first (t : Fin cfg0.N) (h : t.val / 4 % 4 = 0) (q : Fin 1024) :
    (SA m c t).s1 (ix2 (0 : Fin 1) (tix (jOf t) q)) = tCol (DD m c) (bOf t) (iOf t) (jOf t) q :=
  (congrArg (fun st : St Ideal => st.s1 (ix2 (0 : Fin 1) (tix (jOf t) q))) (stAt_eq (F := Ideal) m c t)).trans
    (stepS1_first m c t h _ q)

theorem s1_next (t t' : Fin cfg0.N) (e : t.val = t'.val + 1) (h : t.val / 4 % 4 ≠ 0) (q : Fin 1024) :
    (SA m c t).s1 (ix2 (0 : Fin 1) (tix (jOf t) q))
      = min ((SA m c t').s1 (ix2 (0 : Fin 1) (tix (jOf t) q))) (tCol (DD m c) (bOf t) (iOf t) (jOf t) q) := by
  rw [st_eq m c t t' e]
  exact stepS1_pos m c t h _ q

theorem s1_keep (t t' : Fin cfg0.N) (e : t.val = t'.val + 1) (jj : Fin 4) (hne : jj ≠ jOf t) (q : Fin 1024) :
    (SA m c t).s1 (ix2 (0 : Fin 1) (tix jj q)) = (SA m c t').s1 (ix2 (0 : Fin 1) (tix jj q)) := by
  rw [st_eq m c t t' e]
  exact stepS1_other m c t jj hne _ q

theorem o_zero (t : Fin cfg0.N) (h : t.val % 16 = 0) : (SA m c t).o 𝟬 = zero :=
  (congrArg (fun st : St Ideal => st.o 𝟬) (stAt_eq (F := Ideal) m c t)).trans (stepO_zero t h _ _ _)

theorem o_keep (t t' : Fin cfg0.N) (e : t.val = t'.val + 1) (h1 : t.val % 16 ≠ 0) (h4 : t.val % 4 ≠ 3)
    (h7 : t.val / 4 % 4 ≠ 3) : (SA m c t).o 𝟬 = (SA m c t').o 𝟬 := by
  rw [st_eq m c t t' e]
  exact stepO_keep t h1 h4 h7 _ _ _

theorem o_row (t t' : Fin cfg0.N) (e : t.val = t'.val + 1) (h1 : t.val % 16 ≠ 0) (h4 : t.val % 4 = 3)
    (h7 : t.val / 4 % 4 ≠ 3) :
    (SA m c t).o 𝟬 = (SA m c t').o 𝟬 + (∑ r : Fin 1024, (SA m c t).s0 (ix2 r (0 : Fin 1))) * k12 := by
  rw [st_eq m c t t' e]
  exact stepO_row t h1 h4 h7 _ _ _

theorem o_col (t t' : Fin cfg0.N) (e : t.val = t'.val + 1) (h4 : t.val % 4 ≠ 3) (h7 : t.val / 4 % 4 = 3) :
    (SA m c t).o 𝟬
      = (SA m c t').o 𝟬 + (∑ q : Fin 1024, (SA m c t).s1 (ix2 (0 : Fin 1) (tix (jOf t) q))) * k12 := by
  rw [st_eq m c t t' e]
  exact stepO_col t h4 h7 _ _ _

theorem o_both (t t' : Fin cfg0.N) (e : t.val = t'.val + 1) (h4 : t.val % 4 = 3) (h7 : t.val / 4 % 4 = 3) :
    (SA m c t).o 𝟬
      = ((SA m c t').o 𝟬 + (∑ r : Fin 1024, (SA m c t).s0 (ix2 r (0 : Fin 1))) * k12)
        + (∑ q : Fin 1024, (SA m c t).s1 (ix2 (0 : Fin 1) (tix (jOf t) q))) * k12 := by
  rw [st_eq m c t t' e]
  exact stepO_both t h4 h7 _ _ _

/-! ## The sixteen points of a batch -/

/-- Point k of batch b. -/
def pt (b : Fin 8) (k : ℕ) (hk : k < 16) : Fin cfg0.N :=
  ⟨16 * b.val + k, by have := b.isLt; rw [show cfg0.N = 128 from N_0]; omega⟩

theorem bOf_pt (b : Fin 8) (k : ℕ) (hk : k < 16) : bOf (pt b k hk) = b :=
  Fin.ext (by show (16 * b.val + k) / 16 = b.val; omega)
theorem iOf_pt (b : Fin 8) (k : ℕ) (hk : k < 16) (i : Fin 4) (h : k / 4 = i.val) : iOf (pt b k hk) = i :=
  Fin.ext (by show (16 * b.val + k) / 4 % 4 = i.val; omega)
theorem jOf_pt (b : Fin 8) (k : ℕ) (hk : k < 16) (j : Fin 4) (h : k % 4 = j.val) : jOf (pt b k hk) = j :=
  Fin.ext (by show (16 * b.val + k) % 4 = j.val; omega)
theorem jOf_val (t : Fin cfg0.N) : (jOf t).val = t.val % 4 := rfl

/-- After the last tile of a row sweep the row-minimum scratch holds the four tiles' row minima folded together. -/
theorem s0_acc (b : Fin 8) (i : Fin 4) (k : ℕ) (hk : k < 16) (hi : k = 4 * i.val + 3) (r : Fin 1024) :
    (SA m c (pt b k hk)).s0 (ix2 r (0 : Fin 1)) = accRow (DD m c) b i r := by
  have hi' := i.isLt
  rw [s0_next m c (pt b k hk) (pt b (k - 1) (by omega)) (by show 16 * b.val + k = 16 * b.val + (k - 1) + 1; omega)
      (by show (16 * b.val + k) % 4 ≠ 0; omega) r,
    s0_next m c (pt b (k - 1) (by omega)) (pt b (k - 2) (by omega)) (by show 16 * b.val + (k - 1) = 16 * b.val + (k - 2) + 1; omega)
      (by show (16 * b.val + (k - 1)) % 4 ≠ 0; omega) r,
    s0_next m c (pt b (k - 2) (by omega)) (pt b (k - 3) (by omega)) (by show 16 * b.val + (k - 2) = 16 * b.val + (k - 3) + 1; omega)
      (by show (16 * b.val + (k - 2)) % 4 ≠ 0; omega) r,
    s0_first m c (pt b (k - 3) (by omega)) (by show (16 * b.val + (k - 3)) % 4 = 0; omega) r]
  simp only [bOf_pt]
  rw [iOf_pt b k hk i (by omega), iOf_pt b (k - 1) (by omega) i (by omega), iOf_pt b (k - 2) (by omega) i (by omega),
    iOf_pt b (k - 3) (by omega) i (by omega),
    jOf_pt b k hk 3 (by show k % 4 = 3; omega), jOf_pt b (k - 1) (by omega) 2 (by show (k - 1) % 4 = 2; omega),
    jOf_pt b (k - 2) (by omega) 1 (by show (k - 2) % 4 = 1; omega), jOf_pt b (k - 3) (by omega) 0 (by show (k - 3) % 4 = 0; omega)]
  rfl

/-- A point of a later row tile folds its column minima into what the point four before it left in its slice:
    the three points between touch the other slices. -/
theorem s1_skip (t t' : Fin cfg0.N) (e : t.val = t'.val + 4) (hi : t.val / 4 % 4 ≠ 0) (jj : Fin 4) (hjj : jOf t = jj)
    (q : Fin 1024) :
    (SA m c t).s1 (ix2 (0 : Fin 1) (tix jj q))
      = min ((SA m c t').s1 (ix2 (0 : Fin 1) (tix jj q))) (tCol (DD m c) (bOf t) (iOf t) jj q) := by
  subst hjj
  have hN := t.isLt
  obtain ⟨a1, h1⟩ : ∃ a : Fin cfg0.N, a.val = t'.val + 1 := ⟨⟨t'.val + 1, by omega⟩, rfl⟩
  obtain ⟨a2, h2⟩ : ∃ a : Fin cfg0.N, a.val = t'.val + 2 := ⟨⟨t'.val + 2, by omega⟩, rfl⟩
  obtain ⟨a3, h3⟩ : ∃ a : Fin cfg0.N, a.val = t'.val + 3 := ⟨⟨t'.val + 3, by omega⟩, rfl⟩
  have n3 : jOf t ≠ jOf a3 := fun hh => by have := congrArg Fin.val hh; rw [jOf_val, jOf_val] at this; omega
  have n2 : jOf t ≠ jOf a2 := fun hh => by have := congrArg Fin.val hh; rw [jOf_val, jOf_val] at this; omega
  have n1 : jOf t ≠ jOf a1 := fun hh => by have := congrArg Fin.val hh; rw [jOf_val, jOf_val] at this; omega
  rw [s1_next m c t a3 (by omega) hi q, s1_keep m c a3 a2 (by omega) (jOf t) n3 q, s1_keep m c a2 a1 (by omega) (jOf t) n2 q,
    s1_keep m c a1 t' (by omega) (jOf t) n1 q]

theorem s1_first' (t : Fin cfg0.N) (h : t.val / 4 % 4 = 0) (jj : Fin 4) (hjj : jOf t = jj) (q : Fin 1024) :
    (SA m c t).s1 (ix2 (0 : Fin 1) (tix jj q)) = tCol (DD m c) (bOf t) (iOf t) jj q := by
  subst hjj
  exact s1_first m c t h q

/-- After the last row tile's point on column tile j the slice j of the column-minimum scratch holds the four tiles'
    column minima folded together. -/
theorem s1_acc (b : Fin 8) (j : Fin 4) (k : ℕ) (hk : k < 16) (hj : k = 12 + j.val) (q : Fin 1024) :
    (SA m c (pt b k hk)).s1 (ix2 (0 : Fin 1) (tix (jOf (pt b k hk)) q)) = accCol (DD m c) b j q := by
  have hj' := j.isLt
  rw [jOf_pt b k hk j (by omega)]
  rw [s1_skip m c (pt b k hk) (pt b (k - 4) (by omega)) (by show 16 * b.val + k = 16 * b.val + (k - 4) + 4; omega)
      (by show (16 * b.val + k) / 4 % 4 ≠ 0; omega) j (jOf_pt b k hk j (by omega)) q,
    s1_skip m c (pt b (k - 4) (by omega)) (pt b (k - 8) (by omega)) (by show 16 * b.val + (k - 4) = 16 * b.val + (k - 8) + 4; omega)
      (by show (16 * b.val + (k - 4)) / 4 % 4 ≠ 0; omega) j (jOf_pt b (k - 4) (by omega) j (by omega)) q,
    s1_skip m c (pt b (k - 8) (by omega)) (pt b (k - 12) (by omega)) (by show 16 * b.val + (k - 8) = 16 * b.val + (k - 12) + 4; omega)
      (by show (16 * b.val + (k - 8)) / 4 % 4 ≠ 0; omega) j (jOf_pt b (k - 8) (by omega) j (by omega)) q,
    s1_first' m c (pt b (k - 12) (by omega)) (by show (16 * b.val + (k - 12)) / 4 % 4 = 0; omega) j
      (jOf_pt b (k - 12) (by omega) j (by omega)) q]
  simp only [bOf_pt]
  rw [iOf_pt b k hk 3 (by show k / 4 = 3; omega), iOf_pt b (k - 4) (by omega) 2 (by show (k - 4) / 4 = 2; omega),
    iOf_pt b (k - 8) (by omega) 1 (by show (k - 8) / 4 = 1; omega), iOf_pt b (k - 12) (by omega) 0 (by show (k - 12) / 4 = 0; omega)]
  rfl

/-- After the last point of batch b the output block's entry (0, 0, 0) is the batch's accumulated sum. -/
theorem out_final (b : Fin 8) (h : 16 * b.val + 15 < cfg0.N) :
    (stAt (F := Ideal) m c (16 * b.val + 15) h).o (ix3 (0 : Fin 1) (0 : Fin 8) (0 : Fin 128))
      = kerBatch (dist (XA m c) (YA m c)) b := by
  show (SA m c (pt b 15 (by norm_num))).o 𝟬 = kerBatch (DD m c) b
  rw [
    o_both m c (pt b 15 (by norm_num)) (pt b 14 (by norm_num)) (by show 16 * b.val + 15 = 16 * b.val + 14 + 1; omega) (by show (16 * b.val + 15) % 4 = 3; omega) (by show (16 * b.val + 15) / 4 % 4 = 3; omega),
    o_col m c (pt b 14 (by norm_num)) (pt b 13 (by norm_num)) (by show 16 * b.val + 14 = 16 * b.val + 13 + 1; omega) (by show (16 * b.val + 14) % 4 ≠ 3; omega) (by show (16 * b.val + 14) / 4 % 4 = 3; omega),
    o_col m c (pt b 13 (by norm_num)) (pt b 12 (by norm_num)) (by show 16 * b.val + 13 = 16 * b.val + 12 + 1; omega) (by show (16 * b.val + 13) % 4 ≠ 3; omega) (by show (16 * b.val + 13) / 4 % 4 = 3; omega),
    o_col m c (pt b 12 (by norm_num)) (pt b 11 (by norm_num)) (by show 16 * b.val + 12 = 16 * b.val + 11 + 1; omega) (by show (16 * b.val + 12) % 4 ≠ 3; omega) (by show (16 * b.val + 12) / 4 % 4 = 3; omega),
    o_row m c (pt b 11 (by norm_num)) (pt b 10 (by norm_num)) (by show 16 * b.val + 11 = 16 * b.val + 10 + 1; omega) (by show (16 * b.val + 11) % 16 ≠ 0; omega) (by show (16 * b.val + 11) % 4 = 3; omega) (by show (16 * b.val + 11) / 4 % 4 ≠ 3; omega),
    o_keep m c (pt b 10 (by norm_num)) (pt b 9 (by norm_num)) (by show 16 * b.val + 10 = 16 * b.val + 9 + 1; omega) (by show (16 * b.val + 10) % 16 ≠ 0; omega) (by show (16 * b.val + 10) % 4 ≠ 3; omega) (by show (16 * b.val + 10) / 4 % 4 ≠ 3; omega),
    o_keep m c (pt b 9 (by norm_num)) (pt b 8 (by norm_num)) (by show 16 * b.val + 9 = 16 * b.val + 8 + 1; omega) (by show (16 * b.val + 9) % 16 ≠ 0; omega) (by show (16 * b.val + 9) % 4 ≠ 3; omega) (by show (16 * b.val + 9) / 4 % 4 ≠ 3; omega),
    o_keep m c (pt b 8 (by norm_num)) (pt b 7 (by norm_num)) (by show 16 * b.val + 8 = 16 * b.val + 7 + 1; omega) (by show (16 * b.val + 8) % 16 ≠ 0; omega) (by show (16 * b.val + 8) % 4 ≠ 3; omega) (by show (16 * b.val + 8) / 4 % 4 ≠ 3; omega),
    o_row m c (pt b 7 (by norm_num)) (pt b 6 (by norm_num)) (by show 16 * b.val + 7 = 16 * b.val + 6 + 1; omega) (by show (16 * b.val + 7) % 16 ≠ 0; omega) (by show (16 * b.val + 7) % 4 = 3; omega) (by show (16 * b.val + 7) / 4 % 4 ≠ 3; omega),
    o_keep m c (pt b 6 (by norm_num)) (pt b 5 (by norm_num)) (by show 16 * b.val + 6 = 16 * b.val + 5 + 1; omega) (by show (16 * b.val + 6) % 16 ≠ 0; omega) (by show (16 * b.val + 6) % 4 ≠ 3; omega) (by show (16 * b.val + 6) / 4 % 4 ≠ 3; omega),
    o_keep m c (pt b 5 (by norm_num)) (pt b 4 (by norm_num)) (by show 16 * b.val + 5 = 16 * b.val + 4 + 1; omega) (by show (16 * b.val + 5) % 16 ≠ 0; omega) (by show (16 * b.val + 5) % 4 ≠ 3; omega) (by show (16 * b.val + 5) / 4 % 4 ≠ 3; omega),
    o_keep m c (pt b 4 (by norm_num)) (pt b 3 (by norm_num)) (by show 16 * b.val + 4 = 16 * b.val + 3 + 1; omega) (by show (16 * b.val + 4) % 16 ≠ 0; omega) (by show (16 * b.val + 4) % 4 ≠ 3; omega) (by show (16 * b.val + 4) / 4 % 4 ≠ 3; omega),
    o_row m c (pt b 3 (by norm_num)) (pt b 2 (by norm_num)) (by show 16 * b.val + 3 = 16 * b.val + 2 + 1; omega) (by show (16 * b.val + 3) % 16 ≠ 0; omega) (by show (16 * b.val + 3) % 4 = 3; omega) (by show (16 * b.val + 3) / 4 % 4 ≠ 3; omega),
    o_keep m c (pt b 2 (by norm_num)) (pt b 1 (by norm_num)) (by show 16 * b.val + 2 = 16 * b.val + 1 + 1; omega) (by show (16 * b.val + 2) % 16 ≠ 0; omega) (by show (16 * b.val + 2) % 4 ≠ 3; omega) (by show (16 * b.val + 2) / 4 % 4 ≠ 3; omega),
    o_keep m c (pt b 1 (by norm_num)) (pt b 0 (by norm_num)) (by show 16 * b.val + 1 = 16 * b.val + 0 + 1; omega) (by show (16 * b.val + 1) % 16 ≠ 0; omega) (by show (16 * b.val + 1) % 4 ≠ 3; omega) (by show (16 * b.val + 1) / 4 % 4 ≠ 3; omega),
    o_zero m c (pt b 0 (by norm_num)) (by show (16 * b.val + 0) % 16 = 0; omega)]
  have hp : ∀ (i : Fin 4) (k : ℕ) (hk : k < 16) (hi : k = 4 * i.val + 3),
      (∑ r : Fin 1024, (SA m c (pt b k hk)).s0 (ix2 r (0 : Fin 1))) = ∑ r : Fin 1024, accRow (DD m c) b i r :=
    fun i k hk hi => Finset.sum_congr rfl fun r _ => s0_acc m c b i k hk hi r
  have hc : ∀ (j : Fin 4) (k : ℕ) (hk : k < 16) (hj : k = 12 + j.val),
      (∑ q : Fin 1024, (SA m c (pt b k hk)).s1 (ix2 (0 : Fin 1) (tix (jOf (pt b k hk)) q)))
        = ∑ q : Fin 1024, accCol (DD m c) b j q :=
    fun j k hk hj => Finset.sum_congr rfl fun q _ => s1_acc m c b j k hk hj q
  rw [hp 0 3 (by norm_num) rfl, hp 1 7 (by norm_num) rfl, hp 2 11 (by norm_num) rfl, hp 3 15 (by norm_num) rfl,
    hc 0 12 (by norm_num) rfl, hc 1 13 (by norm_num) rfl, hc 2 14 (by norm_num) rfl, hc 3 15 (by norm_num) rfl]
  rfl

end Cert.KernelIdeal.Hand

end
-- ==== Proof.KI.KernelValue.lean ====
/-
  The idealized kernel's run and its result: @main terminates with its scalar result at the mean over the batches of
  each batch's accumulated sum `kerBatch` of the pairwise distances of the two argument arrays, the arguments unchanged.
  The frame run names the output array after the region; its entries (b, 0, 0) are what the model leaves in the output
  block at each batch's last point (`final_out`, `out_final`), and the host lines after the region take their mean.
-/
import proofs.«171129_j67413806678291_1_alg».proof.Proof.KI.Body
import proofs.«171129_j67413806678291_1_alg».proof.Proof.KI.ArrayFinal
import proofs.«171129_j67413806678291_1_alg».proof.Proof.KI.Tail
import proofs.«171129_j67413806678291_1_alg».proof.Proof.KI.Invariants

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer

variable (m : (ℓ : Loc nD τ sig) → Buf (Elt Ideal) ℓ) (ρ : Dev nD → PrngReg)

/-- The idealized kernel's run: the result is `kerValue` of the distances, the two arguments end unchanged. -/
theorem kernel_run :
    θ_run defs (onTc (τ := τ) (main (F := Ideal))) ⟨m, fun _ => 0, ρ⟩ (fun r => ∀ c : Dev nD,
      r.2.mem ((c.tc : Thread nD τ).loc main_v4) = (fun _ => kerValue (dist (XA m c) (YA m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main (F := Ideal) m ρ)
  · -- the result: the host lines' mean of the output array's entries (b, 0, 0), each a batch's accumulated sum
    refine ((h c).2 main_v4 (by decide)).trans ?_
    funext i
    refine (tail_value m c i).trans ?_
    unfold kerValue
    refine congrArg (fun s => Ideal.div (zero + s) c8) (Finset.sum_congr rfl fun b _ => ?_)
    have hb : 16 * b.val + 15 < cfg0.N := by
      have hN : cfg0.N = 128 := N_0
      have := b.isLt
      omega
    exact (final_out m c b hb).trans (out_final m c b hb)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Hand

end
-- ==== Proof.RefValue.lean ====
/-
  The reference's result, read one operation at a time, is `refValue` of the distances of its two argument arrays.
-/
import proofs.«171129_j67413806678291_1_alg».proof.Proof.Gen.ReferenceIdeal.Run
import proofs.«171129_j67413806678291_1_alg».proof.Proof.Gen.ReferenceIdeal.Read
import proofs.«171129_j67413806678291_1_alg».proof.Proof.Spec
import Idealize.ShloMosaic.PureOps.Reduce
import Idealize.ShloMosaic.Lib.ValueIdxRank1

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Chamfer

/-! ## The operand indices, by coordinates -/

/-- The left factor of the product at (b, n, m), coordinate k, sits at (b, n, k). -/
theorem lidx_v6 (b : Fin 8) (n m : Fin 4096) (k : Fin 128) : Read.lidx_main_v6 (ix3 b n m) k = ix3 b n k :=
  funext fun a => by match a with | ⟨0, _⟩ => rfl | ⟨1, _⟩ => rfl | ⟨2, _⟩ => rfl

/-- The right factor of the product at (b, n, m), coordinate k, sits at (b, m, k). -/
theorem ridx_v6 (b : Fin 8) (n m : Fin 4096) (k : Fin 128) : Read.ridx_main_v6 (ix3 b n m) k = ix3 b m k :=
  funext fun a => by match a with | ⟨0, _⟩ => rfl | ⟨1, _⟩ => rfl | ⟨2, _⟩ => rfl

/-- The squared norm broadcast along m reads the squares at (b, n, k). -/
theorem idx_v1 (b : Fin 8) (n m : Fin 4096) (k : Fin 128) :
    Read.idx_main_v1 (Read.idx_main_v2 (Read.idx_main_v7 (ix3 b n m))) k = ix3 b n k :=
  funext fun a => by match a with | ⟨0, _⟩ => rfl | ⟨1, _⟩ => rfl | ⟨2, _⟩ => rfl

/-- The squared norm broadcast along n reads the squares at (b, m, k). -/
theorem idx_v4 (b : Fin 8) (n m : Fin 4096) (k : Fin 128) :
    Read.idx_main_v4 (Read.idx_main_v5 (Read.idx_main_v8 (ix3 b n m))) k = ix3 b m k :=
  funext fun a => by match a with | ⟨0, _⟩ => rfl | ⟨1, _⟩ => rfl | ⟨2, _⟩ => rfl

theorem idx_v17 (b : Fin 8) (k : Fin 4096) : Read.idx_main_v17 (ix1 b) k = ix2 b k :=
  funext fun a => by match a with | ⟨0, _⟩ => rfl | ⟨1, _⟩ => rfl

theorem idx_v21 (b : Fin 8) (k : Fin 4096) : Read.idx_main_v21 (ix1 b) k = ix2 b k :=
  funext fun a => by match a with | ⟨0, _⟩ => rfl | ⟨1, _⟩ => rfl

/-! ## The distances -/

/-- The square root stage at (b, n, m) is the distance between point n of the first array and point m of the second. -/
theorem v15_at (x0 x1 : (⟨S8x4096x128, .f32⟩ : BufTy).Contents (Elt Ideal)) (b : Fin 8) (n m : Fin 4096) :
    Read.val_main_v15 (F := Ideal) x0 x1 (ix3 b n m) = dist (arr3 x0) (arr3 x1) b n m := by
  rw [Read.val_main_v15_apply, Read.val_main_v14_apply, Read.val_main_v12_apply, Read.val_main_v13_apply,
    Read.val_main_cst_2_apply, Read.val_main_v9_apply, Read.val_main_v11_apply, Read.val_main_v10_apply,
    Read.val_main_cst_1_apply, Read.val_main_v6_apply, Read.val_main_v7_apply, Read.val_main_v2_apply,
    Read.val_main_v1_apply, Read.val_main_v8_apply, Read.val_main_v5_apply, Read.val_main_v4_apply,
    Read.val_main_cst_apply, Read.val_main_cst_0_apply]
  simp only [Read.val_main_v0_apply, Read.val_main_v3_apply, lidx_v6, ridx_v6, idx_v1, idx_v4,
    Ideal.hostUnary_sqrt_def, Ideal.maximumf_def, Ideal.subf_def, Ideal.addf_def, Ideal.mulf_def, Ideal.ofBits_def,
    Ideal.ofBits_zero_f32, zero_add]
  unfold Cert.Chamfer.dist arr3
  rw [show (zero : EReal) = 0 from Ideal.ofBits_zero_f32]

/-! ## The minima -/

/-- Column m of batch b with the point n put back is (b, n, m). -/
theorem lift_col (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  match c with | ⟨0, _⟩ => rfl | ⟨1, _⟩ => rfl | ⟨2, _⟩ => rfl

/-- Row n of batch b with the point m put back is (b, n, m). -/
theorem lift_row (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  match c with | ⟨0, _⟩ => rfl | ⟨1, _⟩ => rfl | ⟨2, _⟩ => rfl

/-- The minimum over the first point set, at (b, m), is the column minimum of the distances. -/
theorem v16_at (x0 x1 : (⟨S8x4096x128, .f32⟩ : BufTy).Contents (Elt Ideal)) (b : Fin 8) (m : Fin 4096) :
    Read.val_main_v16 (F := Ideal) x0 x1 (ix2 b m) = colMin (dist (arr3 x0) (arr3 x1)) b m := by
  unfold Read.val_main_v16
  have h : S8x4096x4096.Reduces [1] S8x4096 := by decide
  refine (Host.reduce_eq_fold_single FloatOps.minimumf _ _ reducesTo_S8x4096x4096_S8x4096_d1 h h_S_ (ix2 b m)).trans ?_
  have hf : (Read.val_main_v15 (F := Ideal) x0 x1 ∘ h.lift (ix2 b m)) = fun n : Fin 4096 => dist (arr3 x0) (arr3 x1) b n m :=
    funext fun k => (congrArg (Read.val_main_v15 (F := Ideal) x0 x1) (lift_col h b m k)).trans (v15_at x0 x1 b _ m)
  rw [hf]
  rfl

/-- The minimum over the second point set, at (b, n), is the row minimum of the distances. -/
theorem v20_at (x0 x1 : (⟨S8x4096x128, .f32⟩ : BufTy).Contents (Elt Ideal)) (b : Fin 8) (n : Fin 4096) :
    Read.val_main_v20 (F := Ideal) x0 x1 (ix2 b n) = rowMin (dist (arr3 x0) (arr3 x1)) b n := by
  unfold Read.val_main_v20
  have h : S8x4096x4096.Reduces [2] S8x4096 := by decide
  refine (Host.reduce_eq_fold_single FloatOps.minimumf _ _ reducesTo_S8x4096x4096_S8x4096_d2 h h_S_ (ix2 b n)).trans ?_
  have hf : (Read.val_main_v15 (F := Ideal) x0 x1 ∘ h.lift (ix2 b n)) = fun m : Fin 4096 => dist (arr3 x0) (arr3 x1) b n m :=
    funext fun k => (congrArg (Read.val_main_v15 (F := Ideal) x0 x1) (lift_row h b n k)).trans (v15_at x0 x1 b n _)
  rw [hf]
  rfl

/-! ## The means -/

/-- Coverage plus precision of batch b. -/
theorem v24_at (x0 x1 : (⟨S8x4096x128, .f32⟩ : BufTy).Contents (Elt Ideal)) (b : Fin 8) :
    Read.val_main_v24 (F := Ideal) x0 x1 (ix1 b) = refBatch (dist (arr3 x0) (arr3 x1)) b := by
  rw [Read.val_main_v24_apply, Read.val_main_v19_apply, Read.val_main_v23_apply, Read.val_main_v17_apply,
    Read.val_main_v21_apply, Read.val_main_v18_apply, Read.val_main_v22_apply, Read.val_main_cst_4_apply,
    Read.val_main_cst_5_apply, Read.val_main_cst_7_apply, Read.val_main_cst_8_apply]
  simp only [idx_v17, idx_v21, v16_at, v20_at, Ideal.addf_def, Ideal.hostDivf_def, Ideal.ofBits_def]
  rfl

/-- The reference's scalar result is the mean over the batches of coverage + precision of the pairwise distances. -/
theorem ref_value (x0 x1 : (⟨S8x4096x128, .f32⟩ : BufTy).Contents (Elt Ideal)) (i : S_.Idx) :
    Read.val_main_v26 (F := Ideal) x0 x1 i = refValue (dist (arr3 x0) (arr3 x1)) := by
  rw [Read.val_main_v26_apply, Read.val_main_v25_apply, Read.val_main_cst_9_apply, Read.val_main_cst_10_apply]
  rw [← Equiv.sum_comp (idxEquiv1 (n := 8)).symm]
  simp only [Ideal.hostDivf_def, Ideal.ofBits_def]
  unfold refValue
  exact congrArg (fun s => Ideal.div (zero + s) c8) (Finset.sum_congr rfl fun b _ => v24_at x0 x1 b)

end Cert.ReferenceIdeal.RefValue

end
-- ==== Proof.Algebra.lean ====
/-
  The kernel's accumulation equals the reference's means: per batch, the four tiles' minima folded together are the
  minimum over the whole row (column); a sum over 4096 indices is the sum of the four tiles' sums; multiplying by
  2⁻¹² is dividing by 4096 and distributes over these sums of non-negative extended reals; and addition of extended
  reals commutes and associates.
-/
import proofs.«171129_j67413806678291_1_alg».proof.Proof.Spec

noncomputable section

namespace Cert.Chamfer

open Idealize.ShloMosaic

/-! ## The words -/

theorem pinf_eq : pinf = ⊤ := by
  simp [Ideal.ofBits, Ideal.ieee]

theorem zero_eq : zero = 0 := Ideal.ofBits_zero_f32

theorem k12_eq : k12 = ((1 / 4096 : ℝ) : EReal) := by
  simp [Ideal.ofBits, Ideal.ieee, -EReal.coe_mul]; norm_num

theorem c4096_eq : c4096 = ((4096 : ℝ) : EReal) := by
  simp [Ideal.ofBits, Ideal.ieee, -EReal.coe_mul]; norm_num

/-- Dividing by the word 4096 is multiplying by the word 2⁻¹². -/
theorem div_c4096 (x : EReal) : Ideal.div (zero + x) c4096 = x * k12 := by
  rw [zero_eq, zero_add, c4096_eq, k12_eq]
  exact Ideal.div_coe (by norm_num) x

theorem k12_nonneg : 0 ≤ k12 := by
  rw [k12_eq]; exact_mod_cast (by norm_num : (0 : ℝ) ≤ 1 / 4096)

/-! ## The tiles cover the 4096 indices -/

theorem tix_surj (n : Fin 4096) : ∃ i r, n = tix i r :=
  ⟨⟨n.val / 1024, by omega⟩, ⟨n.val % 1024, by omega⟩, by ext; simp [tix]; omega⟩

/-- The index pairs (tile, place in the tile) are the 4096 indices. -/
def tileEquiv : Fin 4 × Fin 1024 ≃ Fin 4096 where
  toFun p := tix p.1 p.2
  invFun n := (⟨n.val / 1024, by omega⟩, ⟨n.val % 1024, by omega⟩)
  left_inv := by
    rintro ⟨i, r⟩
    ext <;> simp [tix] <;> omega
  right_inv := by
    intro n
    ext
    simp [tix]
    omega

/-- A minimum over the 4096 indices is the four tiles' minima folded together. -/
theorem fold_min_tiles (f : Fin 4096 → EReal) :
    (Finset.univ : Finset (Fin 4096)).fold min ⊤ f =
      min (min (min ((Finset.univ : Finset (Fin 1024)).fold min ⊤ (fun q => f (tix 0 q)))
        ((Finset.univ : Finset (Fin 1024)).fold min ⊤ (fun q => f (tix 1 q))))
        ((Finset.univ : Finset (Fin 1024)).fold min ⊤ (fun q => f (tix 2 q))))
        ((Finset.univ : Finset (Fin 1024)).fold min ⊤ (fun q => f (tix 3 q))) := by
  refine eq_of_forall_le_iff fun c => ?_
  simp only [Finset.le_fold_min, le_min_iff, le_top, true_and, Finset.mem_univ, forall_true_left]
  constructor
  · intro h
    exact ⟨⟨⟨fun q => h _, fun q => h _⟩, fun q => h _⟩, fun q => h _⟩
  · rintro ⟨⟨⟨h0, h1⟩, h2⟩, h3⟩ n
    obtain ⟨i, r, rfl⟩ := tix_surj n
    fin_cases i
    · exact h0 r
    · exact h1 r
    · exact h2 r
    · exact h3 r

/-- A sum over the 4096 indices is the sum of the four tiles' sums. -/
theorem sum_tiles (g : Fin 4096 → EReal) :
    ∑ n : Fin 4096, g n =
      (∑ r : Fin 1024, g (tix 0 r)) + (∑ r : Fin 1024, g (tix 1 r)) + (∑ r : Fin 1024, g (tix 2 r))
        + (∑ r : Fin 1024, g (tix 3 r)) := by
  rw [← Equiv.sum_comp tileEquiv g, Fintype.sum_prod_type, Fin.sum_univ_four]
  rfl

variable (D : Fin 8 → Fin 4096 → Fin 4096 → EReal)

theorem accRow_eq (b : Fin 8) (i : Fin 4) (r : Fin 1024) : accRow D b i r = rowMin D b (tix i r) := by
  unfold accRow tRow rowMin
  rw [pinf_eq]
  exact (fold_min_tiles (fun m => D b (tix i r) m)).symm

theorem accCol_eq (b : Fin 8) (j : Fin 4) (q : Fin 1024) : accCol D b j q = colMin D b (tix j q) := by
  unfold accCol tCol colMin
  rw [pinf_eq]
  exact (fold_min_tiles (fun n => D b n (tix j q))).symm

theorem rowMin_nonneg (hD : ∀ b n m, 0 ≤ D b n m) (b : Fin 8) (n : Fin 4096) : 0 ≤ rowMin D b n := by
  unfold rowMin
  rw [pinf_eq]
  exact (Finset.le_fold_min _).mpr ⟨le_top, fun m _ => hD b n m⟩

theorem colMin_nonneg (hD : ∀ b n m, 0 ≤ D b n m) (b : Fin 8) (m : Fin 4096) : 0 ≤ colMin D b m := by
  unfold colMin
  rw [pinf_eq]
  exact (Finset.le_fold_min _).mpr ⟨le_top, fun n _ => hD b n m⟩

/-- The scale distributes over a sum of four non-negative extended reals. -/
theorem four_mul {a0 a1 a2 a3 : EReal} (h0 : 0 ≤ a0) (h1 : 0 ≤ a1) (h2 : 0 ≤ a2) (h3 : 0 ≤ a3) (k : EReal) :
    (a0 + a1 + a2 + a3) * k = a0 * k + a1 * k + a2 * k + a3 * k := by
  rw [EReal.right_distrib_of_nonneg (add_nonneg (add_nonneg h0 h1) h2) h3,
    EReal.right_distrib_of_nonneg (add_nonneg h0 h1) h2, EReal.right_distrib_of_nonneg h0 h1]

theorem kerBatch_eq (hD : ∀ b n m, 0 ≤ D b n m) (b : Fin 8) : kerBatch D b = refBatch D b := by
  have hr : ∀ i : Fin 4, 0 ≤ ∑ r : Fin 1024, rowMin D b (tix i r) := fun i =>
    Finset.sum_nonneg fun r _ => rowMin_nonneg D hD b _
  have hc : ∀ j : Fin 4, 0 ≤ ∑ q : Fin 1024, colMin D b (tix j q) := fun j =>
    Finset.sum_nonneg fun q _ => colMin_nonneg D hD b _
  unfold kerBatch refBatch pTerm cTerm
  simp only [accRow_eq, accCol_eq]
  rw [div_c4096, div_c4096, sum_tiles (fun m => colMin D b m), sum_tiles (fun n => rowMin D b n),
    four_mul (hc 0) (hc 1) (hc 2) (hc 3), four_mul (hr 0) (hr 1) (hr 2) (hr 3), zero_eq, zero_add]
  ac_rfl

theorem ker_eq_ref (D : Fin 8 → Fin 4096 → Fin 4096 → EReal) (hD : ∀ b n m, 0 ≤ D b n m) : kerValue D = refValue D := by
  unfold kerValue refValue
  exact congrArg (fun s => Ideal.div (zero + s) c8) (Finset.sum_congr rfl fun b _ => kerBatch_eq D hD b)

end Cert.Chamfer

end
-- ==== Proof.DistNonneg.lean ====
/-
  A distance is a square root of something clamped below by zero, so it is non-negative.
-/
import proofs.«171129_j67413806678291_1_alg».proof.Proof.Spec

noncomputable section

namespace Cert.Chamfer

open Idealize.ShloMosaic

/-- The square root of a non-negative extended real is non-negative: a real's is the real square root, +∞'s is +∞. -/
private theorem sqrt_nonneg_of_nonneg {y : EReal} (hy : 0 ≤ y) : 0 ≤ Ideal.sqrt y := by
  induction y using EReal.rec with
  | bot => exact absurd hy (by simp)
  | coe r =>
    have hr : 0 ≤ r := EReal.coe_nonneg.1 hy
    rw [Ideal.sqrt_coe, if_neg (not_lt.2 hr)]
    exact EReal.coe_nonneg.2 (Real.sqrt_nonneg r)
  | top => rw [Ideal.sqrt_top]; exact le_top

theorem dist_nonneg (X Y : Fin 8 → Fin 4096 → Fin 128 → EReal) (b : Fin 8) (n m : Fin 4096) : 0 ≤ dist X Y b n m := by
  unfold dist
  refine sqrt_nonneg_of_nonneg ?_
  have hz : (0 : EReal) = zero := Ideal.ofBits_zero_f32.symm
  exact hz.le.trans (le_max_right _ _)

end Cert.Chamfer

end
-- ==== Proof.lean ====
/-
  The certificate of the pairwise-distance ("Chamfer") kernel against its jnp reference.

  Both programs compute, for two batches of 4096 points in 128 coordinates, the distances
  dist b n m = √ max(‖x_n‖² + ‖y_m‖² − 2 ⟨x_n, y_m⟩, 0), the mean over m of their column minima plus the mean over n of
  their row minima per batch, and the mean of that over the eight batches.  The kernel walks a batch's 4 × 4 tiles of
  1024 × 1024 distances: it keeps running row minima per row tile and running column minima per column tile in two
  scratch buffers, and adds each finished tile row's (column's) sum of minima times 2⁻¹² into one entry of its output
  block; the host then takes the mean over the batches.  On the extended reals the two agree: a minimum over 4096
  indices is the minimum of the four tiles' minima, a sum over 4096 indices the sum of four tile sums, multiplying by
  2⁻¹² is dividing by 4096 and distributes over sums of non-negative terms, and addition commutes and associates.

  The three frames: both kernel programs run through the pipeline's 128 points with the carried buffers at the
  contents a pure model of the body names (one proof at any float instance, read at the word level and at the extended
  reals); the reference is a straight line of host operations.  No operation of the kernel was rewritten by the
  idealization, so there is nothing to preserve.
-/
import proofs.«171129_j67413806678291_1_alg».proof.Defs
import proofs.«171129_j67413806678291_1_alg».proof.Proof.Gen.Kernel
import proofs.«171129_j67413806678291_1_alg».proof.Proof.Gen.KernelIdeal
import proofs.«171129_j67413806678291_1_alg».proof.Proof.Gen.ReferenceIdeal
import proofs.«171129_j67413806678291_1_alg».proof.Proof.Gen.Pre_finite_inputs
import proofs.«171129_j67413806678291_1_alg».proof.Proof.Gen.ReferenceIdeal.Run
import proofs.«171129_j67413806678291_1_alg».proof.Proof.Gen.ReferenceIdeal.Read
import proofs.«171129_j67413806678291_1_alg».proof.Proof.K.Body
import proofs.«171129_j67413806678291_1_alg».proof.Proof.KI.Body
import proofs.«171129_j67413806678291_1_alg».proof.Proof.KI.KernelValue
import proofs.«171129_j67413806678291_1_alg».proof.Proof.RefValue
import proofs.«171129_j67413806678291_1_alg».proof.Proof.Algebra
import proofs.«171129_j67413806678291_1_alg».proof.Proof.DistNonneg
import Idealize.ShloMosaic.Adequacy
import Idealize.ShloMosaic.Init

noncomputable section

namespace Cert.Proof

open Idealize.ShloMosaic Idealize.SL.Sem Cert.Chamfer

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the same scalar: the kernel's accumulated
    sums over the tiles are the reference's means of minima (`ker_eq_ref`), distances being non-negative. -/
theorem algebraic : Cert.algebraic_KernelIdeal_ReferenceIdeal := by
  intro m ρ m' ρ' _ hagree
  refine ⟨fun c => fun _ => kerValue (dist (Cert.KernelIdeal.Hand.XA m c) (Cert.KernelIdeal.Hand.YA m c)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  funext i
  rw [Cert.ReferenceIdeal.RefValue.ref_value, (hagree c).1, (hagree c).2]
  exact (ker_eq_ref _ (fun b n k => dist_nonneg _ _ b n k)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
